-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x600000 : Shape := ⟨2, ![2, 600000]⟩
abbrev S600000 : Shape := ⟨1, ![600000]⟩
abbrev S100000 : Shape := ⟨1, ![100000]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x600000 : Shape := ⟨2, ![1, 600000]⟩
abbrev S_ : Shape := ⟨0, ![]⟩

class Facts : Prop where
  slices_S2x600000_S1x600000_0_0 : S2x600000.Slices ![0, 0] S1x600000
  shapeCasts_S1x600000_S600000 : S1x600000.ShapeCasts S600000
  bcast_S_S100000x256 : S_.BroadcastsInDim S100000x256 (![] : Fin 0 → Fin S100000x256.rank)
  reducesTo_S100000x256_S_d0_1 : S100000x256.ReducesTo [0, 1] S_
  h_S_ : 0 < S_.numel
  bcast_S_S600000 : S_.BroadcastsInDim S600000 (![] : Fin 0 → Fin S600000.rank)
  reducesTo_S600000_S_d0 : S600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v1 : IVec S600000 32) (main_v30 : IVec S_ 1) (main_v33 : IVec S128x10 1) (main_c_11 : IVec S_ 1) : IVec S_ 1 :=
  let main_v34 : IVec S_ 1 := (fun x v => Host.reduce IntOp.andi x v reducesTo_S128x10_S_d0_1 h_S_) main_v33 main_c_11
  let main_v35 : IVec S_ 1 := andi main_v30 main_v34
  let main_v36 : FVec F S10 .f32 := Host.absf main_arg9
  let main_cst_12 : FVec F S_ .f32 := constant S_ .f32 0x7F800000#32
  let main_v37 : FVec F S10 .f32 := broadcastInDim S10 ![] bcast_S_S10 main_cst_12
  let main_v38 : IVec S10 1 := cmpf .olt main_v36 main_v37
  let main_c_13 : IVec S_ 1 := constantI S_ 1 1#1
  let main_v39 : IVec S_ 1 := (fun x v => Host.reduce IntOp.andi x v reducesTo_S10_S_d0 h_S_) main_v38 main_c_13
  let main_v40 : IVec S_ 1 := andi main_v35 main_v39
  let main_c_14 : IVec S_ 32 := constantI S_ 32 0#32
  let main_v41 : IVec S600000 32 := broadcastInDim S600000 ![] bcast_S_S600000 main_c_14
  let main_v42 : IVec S600000 1 := cmpi .sge main_v1 main_v41
  let main_c_15 : IVec S_ 32 := constantI S_ 32 100000#32
  let main_v43 : IVec S600000 32 := broadcastInDim S600000 ![] bcast_S_S600000 main_c_15
  let main_v44 : IVec S600000 1 := cmpi .slt main_v1 main_v43
  let main_v45 : IVec S600000 1 := andi main_v42 main_v44
  let main_c_16 : IVec S_ 1 := constantI S_ 1 1#1
  let main_v46 : IVec S_ 1 := (fun x v => Host.reduce IntOp.andi x v reducesTo_S600000_S_d0 h_S_) main_v45 main_c_16
  let main_v47 : IVec S_ 1 := andi main_v40 main_v46
  main_v47

def fn_part1 {F : FTy → Type} [FloatOps F] (main_arg6 : FVec F S128x128 .f32) (main_arg7 : FVec F S128 .f32) (main_arg8 : FVec F S128x10 .f32) (main_arg9 : FVec F S10 .f32) (main_v1 : IVec S600000 32) (main_v15 : IVec S_ 1) (main_v16 : FVec F S128 .f32) (main_cst_4 : FVec F S_ .f32) : IVec S_ 1 :=
  let main_v17 : FVec F S128 .f32 := broadcastInDim S128 ![] bcast_S_S128 main_cst_4
  let main_v18 : IVec S128 1 := cmpf .olt main_v16 main_v17
  let main_c_5 : IVec S_ 1 := constantI S_ 1 1#1
  let main_v19 : IVec S_ 1 := (fun x v => Host.reduce IntOp.andi x v reducesTo_S128_S_d0 h_S_) main_v18 main_c_5
  let main_v20 : IVec S_ 1 := andi main_v15 main_v19
  let main_v21 : FVec F S128x128 .f32 := Host.absf main_arg6
  let main_cst_6 : FVec F S_ .f32 := constant S_ .f32 0x7F800000#32
  let main_v22 : FVec F S128x128 .f32 := broadcastInDim S128x128 ![] bcast_S_S128x128 main_cst_6
  let main_v23 : IVec S128x128 1 := cmpf .olt main_v21 main_v22
  let main_c_7 : IVec S_ 1 := constantI S_ 1 1#1
  let main_v24 : IVec S_ 1 := (fun x v => Host.reduce IntOp.andi x v reducesTo_S128x128_S_d0_1 h_S_) main_v23 main_c_7
  let main_v25 : IVec S_ 1 := andi main_v20 main_v24
  let main_v26 : FVec F S128 .f32 := Host.absf main_arg7
  let main_cst_8 : FVec F S_ .f32 := constant S_ .f32 0x7F800000#32
  let main_v27 : FVec F S128 .f32 := broadcastInDim S128 ![] bcast_S_S128 main_cst_8
  let main_v28 : IVec S128 1 := cmpf .olt main_v26 main_v27
  let main_c_9 : IVec S_ 1 := constantI S_ 1 1#1
  let main_v29 : IVec S_ 1 := (fun x v => Host.reduce IntOp.andi x v reducesTo_S128_S_d0 h_S_) main_v28 main_c_9
  let main_v30 : IVec S_ 1 := andi main_v25 main_v29
  let main_v31 : FVec F S128x10 .f32 := Host.absf main_arg8
  let main_cst_10 : FVec F S_ .f32 := constant S_ .f32 0x7F800000#32
  let main_v32 : FVec F S128x10 .f32 := broadcastInDim S128x10 ![] bcast_S_S128x10 main_cst_10
  let main_v33 : IVec S128x10 1 := cmpf .olt main_v31 main_v32
  let main_c_11 : IVec S_ 1 := constantI S_ 1 1#1
  fn_part2 (F := F) main_arg9 main_v1 main_v30 main_v33 main_c_11

def fn {F : FTy → Type} [FloatOps F] (main_arg0 : FVec F S100000x256 .f32) (main_arg1 : IVec S2x600000 32) (main_arg2 : FVec F S600000 .f32) (main_arg3 : IVec S100000 32) (main_arg4 : FVec F S256x128 .f32) (main_arg5 : FVec F S128 .f32) (main_arg6 : FVec F S128x128 .f32) (main_arg7 : FVec F S128 .f32) (main_arg8 : FVec F S128x10 .f32) (main_arg9 : FVec F S10 .f32) : IVec S_ 1 :=
  let main_v0 : IVec S1x600000 32 := (extractStridedSlice S1x600000 ![0, 0] · slices_S2x600000_S1x600000_0_0) main_arg1
  let main_v1 : IVec S600000 32 := shapeCast S600000 main_v0 shapeCasts_S1x600000_S600000
  let main_v2 : FVec F S100000x256 .f32 := Host.absf main_arg0
  let main_cst : FVec F S_ .f32 := constant S_ .f32 0x7F800000#32
  let main_v3 : FVec F S100000x256 .f32 := broadcastInDim S100000x256 ![] bcast_S_S100000x256 main_cst
  let main_v4 : IVec S100000x256 1 := cmpf .olt main_v2 main_v3
  let main_c : IVec S_ 1 := constantI S_ 1 1#1
  let main_v5 : IVec S_ 1 := (fun x v => Host.reduce IntOp.andi x v reducesTo_S100000x256_S_d0_1 h_S_) main_v4 main_c
  let main_v6 : FVec F S600000 .f32 := Host.absf main_arg2
  let main_cst_0 : FVec F S_ .f32 := constant S_ .f32 0x7F800000#32
  let main_v7 : FVec F S600000 .f32 := broadcastInDim S600000 ![] bcast_S_S600000 main_cst_0
  let main_v8 : IVec S600000 1 := cmpf .olt main_v6 main_v7
  let main_c_1 : IVec S_ 1 := constantI S_ 1 1#1
  let main_v9 : IVec S_ 1 := (fun x v => Host.reduce IntOp.andi x v reducesTo_S600000_S_d0 h_S_) main_v8 main_c_1
  let main_v10 : IVec S_ 1 := andi main_v5 main_v9
  let main_v11 : FVec F S256x128 .f32 := Host.absf main_arg4
  let main_cst_2 : FVec F S_ .f32 := constant S_ .f32 0x7F800000#32
  let main_v12 : FVec F S256x128 .f32 := broadcastInDim S256x128 ![] bcast_S_S256x128 main_cst_2
  let main_v13 : IVec S256x128 1 := cmpf .olt main_v11 main_v12
  let main_c_3 : IVec S_ 1 := constantI S_ 1 1#1
  let main_v14 : IVec S_ 1 := (fun x v => Host.reduce IntOp.andi x v reducesTo_S256x128_S_d0_1 h_S_) main_v13 main_c_3
  let main_v15 : IVec S_ 1 := andi main_v10 main_v14
  let main_v16 : FVec F S128 .f32 := Host.absf main_arg5
  let main_cst_4 : FVec F S_ .f32 := constant S_ .f32 0x7F800000#32
  fn_part1 (F := F) main_arg6 main_arg7 main_arg8 main_arg9 main_v1 main_v15 main_v16 main_cst_4
-- ==== Kernel.lean ====
abbrev S100000x256 : Shape := ⟨2, ![100000, 256]⟩
abbrev S2x600000 : Shape := ⟨2, ![2, 600000]⟩
abbrev S600000 : Shape := ⟨1, ![600000]⟩
abbrev S100000 : Shape := ⟨1, ![100000]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x600000 : Shape := ⟨2, ![1, 600000]⟩
abbrev S_ : Shape := ⟨0, ![]⟩
abbrev S600000x1 : Shape := ⟨2, ![600000, 1]⟩
abbrev S100000x128 : Shape := ⟨2, ![100000, 128]⟩
abbrev S5000x256 : Shape := ⟨2, ![5000, 256]⟩
abbrev S5000x128 : Shape := ⟨2, ![5000, 128]⟩
abbrev S1 : Shape := ⟨1, ![1]⟩
abbrev S1x1 : Shape := ⟨2, ![1, 1]⟩
abbrev S600000x128 : Shape := ⟨2, ![600000, 128]⟩
abbrev S1x128 : Shape := ⟨2, ![1, 128]⟩
abbrev S100000x1 : Shape := ⟨2, ![100000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 174
  | .vmem => 20
  | .smem => 0
  | _ => 0

abbrev hbmTy0_0 (i : Nat) : BufTy := match i % 128 with
  | 0 => ⟨S100000x256, .f32⟩
  | 1 => ⟨S2x600000, .i32⟩
  | 2 => ⟨S600000, .f32⟩
  | 3 => ⟨S100000, .i32⟩
  | 4 => ⟨S256x128, .f32⟩
  | 5 => ⟨S128, .f32⟩
  | 6 => ⟨S128x128, .f32⟩
  | 7 => ⟨S128, .f32⟩
  | 8 => ⟨S128x10, .f32⟩
  | 9 => ⟨S10, .f32⟩
  | 10 => ⟨S1x600000, .i32⟩
  | 11 => ⟨S600000, .i32⟩
  | 12 => ⟨S1x600000, .i32⟩
  | 13 => ⟨S600000, .i32⟩
  | 14 => ⟨S_, .f32⟩
  | 15 => ⟨S100000, .f32⟩
  | 16 => ⟨S600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .i1⟩
  | 24 => ⟨S_, .f32⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S100000x128, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000, .f32⟩
  | 43 => ⟨S600000, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000, .f32⟩
  | 53 => ⟨S600000, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S1, .i32⟩
  | 63 => ⟨S_, .i32⟩
  | 64 => ⟨S600000x1, .i32⟩
  | 65 => ⟨S600000x1, .i1⟩
  | 66 => ⟨S1x1, .i32⟩
  | 67 => ⟨S600000x1, .i32⟩
  | 68 => ⟨S600000x1, .i1⟩
  | 69 => ⟨S600000x1, .i1⟩
  | 70 => ⟨S_, .i1⟩
  | 71 => ⟨S600000, .i1⟩
  | 72 => ⟨S600000x128, .f32⟩
  | 73 => ⟨S600000x128, .i1⟩
  | 74 => ⟨S_, .f32⟩
  | 75 => ⟨S600000x128, .f32⟩
  | 76 => ⟨S600000x128, .f32⟩
  | 77 => ⟨S600000x1, .f32⟩
  | 78 => ⟨S600000x128, .f32⟩
  | 79 => ⟨S600000x128, .f32⟩
  | 80 => ⟨S_, .f32⟩
  | 81 => ⟨S100000x128, .f32⟩
  | 82 => ⟨S600000x1, .i32⟩
  | 83 => ⟨S100000x128, .f32⟩
  | 84 => ⟨S1x128, .f32⟩
  | 85 => ⟨S100000x128, .f32⟩
  | 86 => ⟨S100000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000, .f32⟩
  | 96 => ⟨S600000, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000, .f32⟩
  | 106 => ⟨S600000, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S1, .i32⟩
  | 116 => ⟨S_, .i32⟩
  | 117 => ⟨S600000x1, .i32⟩
  | 118 => ⟨S600000x1, .i1⟩
  | 119 => ⟨S1x1, .i32⟩
  | 120 => ⟨S600000x1, .i32⟩
  | 121 => ⟨S600000x1, .i1⟩
  | 122 => ⟨S600000x1, .i1⟩
  | 123 => ⟨S_, .i1⟩
  | 124 => ⟨S600000, .i1⟩
  | 125 => ⟨S600000x128, .f32⟩
  | 126 => ⟨S600000x128, .i1⟩
  | 127 => ⟨S_, .f32⟩
  | _ => ⟨S100000x256, .f32⟩

abbrev hbmTy0_1 (i : Nat) : BufTy := match i % 128 with
  | 0 => ⟨S600000x128, .f32⟩
  | 1 => ⟨S600000x128, .f32⟩
  | 2 => ⟨S600000x1, .f32⟩
  | 3 => ⟨S600000x128, .f32⟩
  | 4 => ⟨S600000x128, .f32⟩
  | 5 => ⟨S_, .f32⟩
  | 6 => ⟨S100000x128, .f32⟩
  | 7 => ⟨S600000x1, .i32⟩
  | 8 => ⟨S100000x128, .f32⟩
  | 9 => ⟨S1x128, .f32⟩
  | 10 => ⟨S100000x128, .f32⟩
  | 11 => ⟨S_, .f32⟩
  | 12 => ⟨S256x128, .f32⟩
  | 13 => ⟨S100000x1, .i32⟩
  | 14 => ⟨S256x128, .f32⟩
  | 15 => ⟨S_, .f32⟩
  | 16 => ⟨S100000, .f32⟩
  | 17 => ⟨S_, .f32⟩
  | 18 => ⟨S256, .f32⟩
  | 19 => ⟨S100000x1, .i32⟩
  | 20 => ⟨S256, .f32⟩
  | 21 => ⟨S_, .f32⟩
  | 22 => ⟨S256, .f32⟩
  | 23 => ⟨S256, .f32⟩
  | 24 => ⟨S256x1, .f32⟩
  | 25 => ⟨S256x128, .f32⟩
  | 26 => ⟨S256x128, .f32⟩
  | 27 => ⟨S256x10, .f32⟩
  | 28 => ⟨S1x10, .f32⟩
  | 29 => ⟨S256x10, .f32⟩
  | 30 => ⟨S256x10, .f32⟩
  | 31 => ⟨S_, .f32⟩
  | 32 => ⟨S256, .f32⟩
  | 33 => ⟨S_, .f32⟩
  | 34 => ⟨S256, .f32⟩
  | 35 => ⟨S256, .f32⟩
  | 36 => ⟨S256x1, .f32⟩
  | 37 => ⟨S256x10, .f32⟩
  | 38 => ⟨S256x10, .f32⟩
  | 39 => ⟨S256x10, .f32⟩
  | 40 => ⟨S_, .f32⟩
  | 41 => ⟨S256, .f32⟩
  | 42 => ⟨S256x1, .f32⟩
  | 43 => ⟨S256x1, .f32⟩
  | 44 => ⟨S256x10, .f32⟩
  | 45 => ⟨S256x10, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_7 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_8 : Ref sig .tc := ⟨.hbm, 87, rfl⟩
abbrev main_v41 : Ref sig .tc := ⟨.hbm, 88, rfl⟩
abbrev main_v42 : Ref sig .tc := ⟨.hbm, 89, rfl⟩
abbrev main_c_9 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_c_10 : Ref sig .tc := ⟨.hbm, 97, rfl⟩
abbrev main_v49 : Ref sig .tc := ⟨.hbm, 98, rfl⟩
abbrev main_v50 : Ref sig .tc := ⟨.hbm, 99, rfl⟩
abbrev main_c_11 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_call3_c : Ref sig .tc := ⟨.hbm, 107, rfl⟩
abbrev main_call3_v0 : Ref sig .tc := ⟨.hbm, 108, rfl⟩
abbrev main_call3_v1 : Ref sig .tc := ⟨.hbm, 109, rfl⟩
abbrev main_call3_c_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_c_1 : Ref sig .tc := ⟨.hbm, 115, rfl⟩
abbrev main_call3_c_2 : Ref sig .tc := ⟨.hbm, 116, rfl⟩
abbrev main_call3_v6 : Ref sig .tc := ⟨.hbm, 117, rfl⟩
abbrev main_call3_v7 : Ref sig .tc := ⟨.hbm, 118, rfl⟩
abbrev main_call3_v8 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_c_3 : Ref sig .tc := ⟨.hbm, 123, rfl⟩
abbrev main_call3_v12 : Ref sig .tc := ⟨.hbm, 124, rfl⟩
abbrev main_call3_v13 : Ref sig .tc := ⟨.hbm, 125, rfl⟩
abbrev main_call3_v14 : Ref sig .tc := ⟨.hbm, 126, rfl⟩
abbrev main_call3_cst : Ref sig .tc := ⟨.hbm, 127, rfl⟩
abbrev main_call3_v15 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_cst_12 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_cst_13 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_cst_14 : Ref sig .tc := ⟨.hbm, 143, rfl⟩
abbrev main_v69 : Ref sig .tc := ⟨.hbm, 144, rfl⟩
abbrev main_cst_15 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_cst_16 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_call4_cst : Ref sig .tc := ⟨.hbm, 159, rfl⟩
abbrev main_call4_v0 : Ref sig .tc := ⟨.hbm, 160, rfl⟩
abbrev main_call4_cst_0 : Ref sig .tc := ⟨.hbm, 161, rfl⟩
abbrev main_call4_v1 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_call4_v5 : Ref sig .tc := ⟨.hbm, 166, rfl⟩
abbrev main_call4_v6 : Ref sig .tc := ⟨.hbm, 167, rfl⟩
abbrev main_call4_cst_1 : Ref sig .tc := ⟨.hbm, 168, rfl⟩
abbrev main_call4_v7 : Ref sig .tc := ⟨.hbm, 169, rfl⟩
abbrev main_call4_v8 : Ref sig .tc := ⟨.hbm, 170, rfl⟩
abbrev main_call4_v9 : Ref sig .tc := ⟨.hbm, 171, rfl⟩
abbrev main_call4_v10 : Ref sig .tc := ⟨.hbm, 172, rfl⟩
abbrev main_v82 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S600000_S600000x1_0 : S600000.BroadcastsInDim S600000x1 (![0] : Fin 1 → Fin S600000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S600000 : S_.BroadcastsInDim S600000 (![] : Fin 0 → Fin S600000.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  bcast_S256x1_S256x10_0_1 : S256x1.BroadcastsInDim S256x10 (![0, 1] : Fin 2 → Fin S256x10.rank)
  scatter_S100000_S600000x1_S600000_n_0_0_1_wf : ScatterDims.WF S100000 S600000x1 S600000 [] [0] [0] 1
  dot_S5000x256_S256x128_S5000x128_1_0_0_1_n_n_wf : DotDims.WF S5000x256 S256x128 S5000x128 [1] [0] [0] [1] [] []
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x600000 : Shape := ⟨2, ![2, 600000]⟩
abbrev S600000 : Shape := ⟨1, ![600000]⟩
abbrev S100000 : Shape := ⟨1, ![100000]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x600000 : Shape := ⟨2, ![1, 600000]⟩
abbrev S_ : Shape := ⟨0, ![]⟩
abbrev S600000x1 : Shape := ⟨2, ![600000, 1]⟩
abbrev S100000x128 : Shape := ⟨2, ![100000, 128]⟩
abbrev S600000x128 : Shape := ⟨2, ![600000, 128]⟩
abbrev S1x128 : Shape := ⟨2, ![1, 128]⟩
abbrev S100000x1 : Shape := ⟨2, ![100000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 181
  | .vmem => 0
  | .smem => 0
  | _ => 0

abbrev hbmTy0_0 (i : Nat) : BufTy := match i % 128 with
  | 0 => ⟨S100000x256, .f32⟩
  | 1 => ⟨S2x600000, .i32⟩
  | 2 => ⟨S600000, .f32⟩
  | 3 => ⟨S100000, .i32⟩
  | 4 => ⟨S256x128, .f32⟩
  | 5 => ⟨S128, .f32⟩
  | 6 => ⟨S128x128, .f32⟩
  | 7 => ⟨S128, .f32⟩
  | 8 => ⟨S128x10, .f32⟩
  | 9 => ⟨S10, .f32⟩
  | 10 => ⟨S1x600000, .i32⟩
  | 11 => ⟨S600000, .i32⟩
  | 12 => ⟨S1x600000, .i32⟩
  | 13 => ⟨S600000, .i32⟩
  | 14 => ⟨S_, .f32⟩
  | 15 => ⟨S100000, .f32⟩
  | 16 => ⟨S600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .i1⟩
  | 24 => ⟨S_, .f32⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S600000, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000, .f32⟩
  | 52 => ⟨S600000, .f32⟩
  | 53 => ⟨S100000x128, .f32⟩
  | 54 => ⟨S600000x1, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S600000x128, .f32⟩
  | 65 => ⟨S600000x128, .f32⟩
  | 66 => ⟨S_, .f32⟩
  | 67 => ⟨S100000x128, .f32⟩
  | 68 => ⟨S600000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .i1⟩
  | 76 => ⟨S_, .f32⟩
  | 77 => ⟨S100000x128, .f32⟩
  | 78 => ⟨S100000x128, .f32⟩
  | 79 => ⟨S100000x128, .f32⟩
  | 80 => ⟨S_, .f32⟩
  | 81 => ⟨S100000, .f32⟩
  | 82 => ⟨S600000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S100000, .f32⟩
  | 89 => ⟨S100000, .i1⟩
  | 90 => ⟨S_, .f32⟩
  | 91 => ⟨S_, .f32⟩
  | 92 => ⟨S100000, .f32⟩
  | 93 => ⟨S100000, .f32⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000, .f32⟩
  | 108 => ⟨S600000, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000, .f32⟩
  | 118 => ⟨S600000, .f32⟩
  | 119 => ⟨S100000x128, .f32⟩
  | 120 => ⟨S600000x1, .f32⟩
  | 121 => ⟨S_, .i32⟩
  | 122 => ⟨S600000, .i32⟩
  | 123 => ⟨S600000, .i1⟩
  | 124 => ⟨S_, .i32⟩
  | 125 => ⟨S600000, .i32⟩
  | 126 => ⟨S600000, .i32⟩
  | 127 => ⟨S600000, .i32⟩
  | _ => ⟨S100000x256, .f32⟩

abbrev hbmTy0_1 (i : Nat) : BufTy := match i % 128 with
  | 0 => ⟨S600000x1, .i32⟩
  | 1 => ⟨S600000x128, .f32⟩
  | 2 => ⟨S600000x128, .f32⟩
  | 3 => ⟨S600000x128, .f32⟩
  | 4 => ⟨S_, .f32⟩
  | 5 => ⟨S100000x128, .f32⟩
  | 6 => ⟨S600000x1, .i32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .i1⟩
  | 14 => ⟨S_, .f32⟩
  | 15 => ⟨S100000x128, .f32⟩
  | 16 => ⟨S100000x128, .f32⟩
  | 17 => ⟨S100000x128, .f32⟩
  | 18 => ⟨S_, .f32⟩
  | 19 => ⟨S256x128, .f32⟩
  | 20 => ⟨S100000x1, .i32⟩
  | 21 => ⟨S256x128, .f32⟩
  | 22 => ⟨S_, .f32⟩
  | 23 => ⟨S100000, .f32⟩
  | 24 => ⟨S_, .f32⟩
  | 25 => ⟨S256, .f32⟩
  | 26 => ⟨S100000x1, .i32⟩
  | 27 => ⟨S256, .f32⟩
  | 28 => ⟨S_, .f32⟩
  | 29 => ⟨S256, .f32⟩
  | 30 => ⟨S256, .f32⟩
  | 31 => ⟨S256x1, .f32⟩
  | 32 => ⟨S256x128, .f32⟩
  | 33 => ⟨S256x128, .f32⟩
  | 34 => ⟨S256x10, .f32⟩
  | 35 => ⟨S1x10, .f32⟩
  | 36 => ⟨S256x10, .f32⟩
  | 37 => ⟨S256x10, .f32⟩
  | 38 => ⟨S_, .f32⟩
  | 39 => ⟨S256, .f32⟩
  | 40 => ⟨S_, .f32⟩
  | 41 => ⟨S256, .f32⟩
  | 42 => ⟨S256, .f32⟩
  | 43 => ⟨S256x1, .f32⟩
  | 44 => ⟨S256x10, .f32⟩
  | 45 => ⟨S256x10, .f32⟩
  | 46 => ⟨S256x10, .f32⟩
  | 47 => ⟨S_, .f32⟩
  | 48 => ⟨S256, .f32⟩
  | 49 => ⟨S256x1, .f32⟩
  | 50 => ⟨S256x1, .f32⟩
  | 51 => ⟨S256x10, .f32⟩
  | 52 => ⟨S256x10, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_cst_14 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_call3_v0 : Ref sig .tc := ⟨.hbm, 91, rfl⟩
abbrev main_call3_v1 : Ref sig .tc := ⟨.hbm, 92, rfl⟩
abbrev main_v59 : Ref sig .tc := ⟨.hbm, 93, rfl⟩
abbrev main_v60 : Ref sig .tc := ⟨.hbm, 94, rfl⟩
abbrev main_cst_16 : Ref sig .tc := ⟨.hbm, 95, rfl⟩
abbrev main_call4_v0 : Ref sig .tc := ⟨.hbm, 96, rfl⟩
abbrev main_call4_v1 : Ref sig .tc := ⟨.hbm, 97, rfl⟩
abbrev main_v61 : Ref sig .tc := ⟨.hbm, 98, rfl⟩
abbrev main_c_17 : Ref sig .tc := ⟨.hbm, 99, rfl⟩
abbrev main_v62 : Ref sig .tc := ⟨.hbm, 100, rfl⟩
abbrev main_v63 : Ref sig .tc := ⟨.hbm, 101, rfl⟩
abbrev main_c_18 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_19 : Ref sig .tc := ⟨.hbm, 109, rfl⟩
abbrev main_v70 : Ref sig .tc := ⟨.hbm, 110, rfl⟩
abbrev main_v71 : Ref sig .tc := ⟨.hbm, 111, rfl⟩
abbrev main_c_20 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_21 : Ref sig .tc := ⟨.hbm, 121, rfl⟩
abbrev main_v80 : Ref sig .tc := ⟨.hbm, 122, rfl⟩
abbrev main_v81 : Ref sig .tc := ⟨.hbm, 123, rfl⟩
abbrev main_c_22 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_23 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_24 : Ref sig .tc := ⟨.hbm, 139, rfl⟩
abbrev main_v95 : Ref sig .tc := ⟨.hbm, 140, rfl⟩
abbrev main_v96 : Ref sig .tc := ⟨.hbm, 141, rfl⟩
abbrev main_cst_25 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_26 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_27 : Ref sig .tc := ⟨.hbm, 150, rfl⟩
abbrev main_v103 : Ref sig .tc := ⟨.hbm, 151, rfl⟩
abbrev main_cst_28 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_29 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_call6_cst : Ref sig .tc := ⟨.hbm, 166, rfl⟩
abbrev main_call6_v0 : Ref sig .tc := ⟨.hbm, 167, rfl⟩
abbrev main_call6_cst_0 : Ref sig .tc := ⟨.hbm, 168, rfl⟩
abbrev main_call6_v1 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_call6_v5 : Ref sig .tc := ⟨.hbm, 173, rfl⟩
abbrev main_call6_v6 : Ref sig .tc := ⟨.hbm, 174, rfl⟩
abbrev main_call6_cst_1 : Ref sig .tc := ⟨.hbm, 175, rfl⟩
abbrev main_call6_v7 : Ref sig .tc := ⟨.hbm, 176, rfl⟩
abbrev main_call6_v8 : Ref sig .tc := ⟨.hbm, 177, rfl⟩
abbrev main_call6_v9 : Ref sig .tc := ⟨.hbm, 178, rfl⟩
abbrev main_call6_v10 : Ref sig .tc := ⟨.hbm, 179, rfl⟩
abbrev main_v116 : Ref sig .tc := ⟨.hbm, 180, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  h_S_ : 0 < S_.numel
  bcast_S256x1_S256x10_0_1 : S256x1.BroadcastsInDim S256x10 (![0, 1] : Fin 2 → Fin S256x10.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S100000x256_S256x128_S100000x128_1_0_0_1_n_n_wf : DotDims.WF S100000x256 S256x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x10_S256x10_1_0_0_1_n_n_wf : DotDims.WF S256x128 S128x10 S256x10 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.PreDecode.lean ====
/-
  What the precondition says of the source-node indices. The precondition is a conjunction whose last conjunct is
  "every entry of edge_index[0] is ≥ 0 and < 100000", folded to one bit by a reduction with `and`; it being all ones gives
  the two comparisons at every edge. edge_index[0] is row 0 of the [2, 600000] array, sliced and reshaped to [600000].
-/
import proofs.«404412_j85572928405775_1_alg».proof.Defs
import proofs.«404412_j85572928405775_1_alg».proof.Proof.Gen.KernelIdeal
import proofs.«404412_j85572928405775_1_alg».proof.Proof.Gen.Pre_finite_inputs
import Idealize.ShloMosaic.Lib.StableHlo.Predicate
import Idealize.ShloMosaic.Lib.ReduceAll

set_option maxRecDepth 16384

noncomputable section

namespace Cert.Bridge.Pre

open Cert.KernelIdeal Cert.KernelIdeal.Facts₀
open Idealize.ShloMosaic Idealize.ShloMosaic.TcCoe Idealize.SL.Sem

/-- The source-node indices: row 0 of edge_index, as the kernel's program slices and reshapes it. -/
def rowOf (x1 : IVec S2x600000 32) : IVec S600000 32 :=
  shapeCast S600000 (extractStridedSlice S1x600000 ![0, 0] x1 slices_S2x600000_S1x600000_0_0) shapeCasts_S1x600000_S600000

/-- Under the precondition every source-node index is in 0 … 99999, on every device. -/
theorem row_ok (m : (ℓ : Loc nD τ sig) → Buf (Elt Ideal) ℓ) (hpre : Cert.Pre_KernelIdeal m) (c : Dev nD) (e : S600000.Idx) :
    IntOp.cmpi .sge (rowOf (m ((c.tc : Thread nD τ).loc main_arg1)) e) 0#32 = 1#1
      ∧ IntOp.cmpi .slt (rowOf (m ((c.tc : Thread nD τ).loc main_arg1)) e) 100000#32 = 1#1 := by
  -- the predicate at its one index: a chain of `and`s
  have h := congrFun (hpre c) (fun d => d.elim0)
  -- the right operand of the outermost `and` is the reduce over the range tests
  have h46 := (IntOp.andi_eq_one.1 h).2
  -- a reduce by `and` that is 1 met only 1s: the test at edge `e` (every index drops to the one result index)
  have he := Host.reduce_andi_eq_one _ _ _ _ _ h46 e (funext fun d => d.elim0)
  -- that test is the `and` of the two comparisons, against the broadcast constants
  exact IntOp.andi_eq_one.1 he

end Cert.Bridge.Pre

end
-- ==== Proof.RegionMatmulA.lean ====
/-
  Region 0 of the kernel's program is a matrix product tiled over the node axis: grid point t multiplies rows
  5000·t … 5000·t + 4999 of the left array by the whole right array and writes that block of the output. Read at the
  exact reals the change of format to bf16 is the identity, so the whole output array is the host's dot_general of the two arrays
  the region finds: entry (n, j) is the sum over k of left (n, k) · right (k, j).

  The proof reads both products at an entry as that sum over the 256 values of k (the contraction index of either is its
  one coordinate), shows that entry (p, q) of the block grid point t stores is entry (5000·t + p, q) of the host's product
  — the left window's block at t is rows 5000·t … of the left array, the right window's block is the whole right array —
  and that the 20 blocks tile the output (row r lies in the block of point r / 5000).
-/
import proofs.«404412_j85572928405775_1_alg».proof.Proof.Gen.KernelIdeal.Frame
import proofs.«404412_j85572928405775_1_alg».proof.ReferenceIdeal
import proofs.«404412_j85572928405775_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.Bridge.Region0

open Cert.KernelIdeal Cert.KernelIdeal.Gen
open Idealize.ShloMosaic Idealize.ShloMosaic.TcCoe Idealize.SL.Sem

open Idealize.ShloMosaic.ValueIdx

/-! ## The two products at an entry -/

/-- The host's product contracts axis 1 of the left array with axis 0 of the right one and keeps the other two axes in
    order: the left operand is read at (row of the entry, k) -/
theorem host_lhs_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
  rfl
theorem host_lhs_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 1).val = (q ⟨0, by decide⟩).val :=
  Cert.ReferenceIdeal.dot_S100000x256_S256x128_S100000x128_1_0_0_1_n_n.lhsIdx_val_of_single rfl i q
/-- and the right operand at (k, column of the entry). -/
theorem host_rhs_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 0).val = (q ⟨0, by decide⟩).val :=
  Cert.ReferenceIdeal.dot_S100000x256_S256x128_S100000x128_1_0_0_1_n_n.rhsIdx_val_of_single rfl i q
theorem host_rhs_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
  rfl

/-- The host's product at entry (n, j): the sum over k of left (n, k) · right (k, j). -/
theorem host_apply (A : FVec Ideal Cert.ReferenceIdeal.S100000x256 .f32) (B : FVec Ideal Cert.ReferenceIdeal.S256x128 .f32) (n : Fin 100000) (j : Fin 128) :
    Host.dotGeneral (F := Ideal) Cert.ReferenceIdeal.dot_S100000x256_S256x128_S100000x128_1_0_0_1_n_n none A B (ix2 n j)
      = ∑ k : Fin 256, A (ix2 n k) * B (ix2 k j) := by
  simp only [Host.dotGeneral]
  rw [Ideal.dotGeneral_apply, ← Equiv.sum_comp (contrEquiv1 Cert.ReferenceIdeal.dot_S100000x256_S256x128_S100000x128_1_0_0_1_n_n 256 rfl rfl).symm]
  refine Finset.sum_congr rfl fun k _ => ?_
  have hk := contrEquiv1_symm_val Cert.ReferenceIdeal.dot_S100000x256_S256x128_S100000x128_1_0_0_1_n_n 256 rfl rfl k
  have el : Cert.ReferenceIdeal.dot_S100000x256_S256x128_S100000x128_1_0_0_1_n_n.lhsIdx (ix2 n j) ((contrEquiv1 Cert.ReferenceIdeal.dot_S100000x256_S256x128_S100000x128_1_0_0_1_n_n 256 rfl rfl).symm k) = ix2 n k := funext fun a => Fin.ext (by
    match a with
    | ⟨0, _⟩ => exact host_lhs_0 _ _
    | ⟨1, _⟩ => exact (host_lhs_1 _ _).trans hk)
  have er : Cert.ReferenceIdeal.dot_S100000x256_S256x128_S100000x128_1_0_0_1_n_n.rhsIdx (ix2 n j) ((contrEquiv1 Cert.ReferenceIdeal.dot_S100000x256_S256x128_S100000x128_1_0_0_1_n_n 256 rfl rfl).symm k) = ix2 k j := funext fun a => Fin.ext (by
    match a with
    | ⟨0, _⟩ => exact (host_rhs_0 _ _).trans hk
    | ⟨1, _⟩ => exact host_rhs_1 _ _)
  rw [el, er]

/-- The body's product of one block has the same dimension numbers: the left block is read at (row, k) -/
theorem body_lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem body_lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- and the right block at (k, column). -/
theorem body_rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem body_rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's payload at entry (p, q) of its block: the change of format is the identity at the exact reals and the
    product starts from zero, so it is the sum over k of left block (p, k) · right block (k, q). -/
theorem body_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact body_lhs_0 _ _
    | ⟨1, _⟩ => exact (body_lhs_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (body_rhs_0 _ _).trans hk
    | ⟨1, _⟩ => exact body_rhs_1 _ _)
  rw [el, er]
  rfl

/-! ## One block of the output -/

/-- The stated entry of one block: if the left block holds rows 5000·T … of the left array and the right block is the
    right array, entry (p, q) of the body's product is entry (5000·T + p, q) of the host's product of the whole arrays:
    the two sums have the same terms. -/
theorem block_entry (x0 : Vec Ideal S5000x256 .f32) (x1 : Vec Ideal S256x128 .f32)
    (A : FVec Ideal Cert.ReferenceIdeal.S100000x256 .f32) (B : FVec Ideal Cert.ReferenceIdeal.S256x128 .f32) (T : Nat)
    (h0 : ∀ (p : Fin 5000) (k : Fin 256) (n : Fin 100000), n.val = 5000 * T + p.val → x0 (ix2 p k) = A (ix2 n k))
    (h1 : ∀ (k : Fin 256) (q : Fin 128), x1 (ix2 k q) = B (ix2 k q))
    (y : S5000x128.Idx) (i : Cert.ReferenceIdeal.S100000x128.Idx)
    (hi0 : (i 0).val = 5000 * T + (y 0).val) (hi1 : (i 1).val = (y 1).val) :
    k0_pay1 (F := Ideal) x0 x1 y
      = Host.dotGeneral (F := Ideal) Cert.ReferenceIdeal.dot_S100000x256_S256x128_S100000x128_1_0_0_1_n_n none A B i := by
  obtain ⟨p, q, rfl⟩ : ∃ (p : Fin 5000) (q : Fin 128), y = ix2 p q := ⟨y 0, y 1, eq_ix2 y⟩
  obtain ⟨n, j, rfl⟩ : ∃ (n : Fin 100000) (j : Fin 128), i = ix2 n j := ⟨i 0, i 1, eq_ix2 i⟩
  obtain rfl : j = q := Fin.ext hi1
  rw [body_apply, host_apply]
  exact Finset.sum_congr rfl fun k _ => by rw [h0 p k n hi0, h1 k j]

theorem zero_offsets : (![0, 0] : Fin 2 → Nat) = fun _ => 0 := funext fun a => by
  match a with
  | ⟨0, _⟩ => rfl
  | ⟨1, _⟩ => rfl

/-- The printed index maps over the 20 grid points: the left window and the output window are at block (t, 0), the right
    window always at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The left window's block at point t holds rows 5000·t … 5000·t + 4999 of the left array. -/
theorem left_block (c : Dev nD) (t : Fin cfg0.N) (p : Fin 5000) (k : Fin 256) (n : Fin 100000)
    (hn : n.val = 5000 * t.val + p.val) :
    (iblk0 (F := Ideal) V c 0 t : Vec Ideal S5000x256 .f32) (ix2 p k)
      = (V c (Pipeline.arrRef spec0 0) : Vec Ideal S100000x256 .f32) (ix2 n k) := by
  obtain ⟨e00, e01, -⟩ := index_maps t
  have h : ((cfg0.win 0).blk t).view.emb (ix2 p k) = ix2 n k := funext fun a => Fin.ext (by
    match a with
    | ⟨0, _⟩ => show win0_0.index t (0 : Fin 2) * 5000 + 1 * p.val = n.val; omega
    | ⟨1, _⟩ => show win0_0.index t (1 : Fin 2) * 256 + 1 * k.val = k.val; omega)
  show V c (Pipeline.arrRef spec0 0) (((cfg0.win 0).blk t).view.emb (ix2 p k)) = _
  rw [h]

/-- The right window's block at every point is the whole right array. -/
theorem right_block (c : Dev nD) (t : Fin cfg0.N) (k : Fin 256) (q : Fin 128) :
    (iblk0 (F := Ideal) V c 1 t : Vec Ideal S256x128 .f32) (ix2 k q)
      = (V c (Pipeline.arrRef spec0 1) : Vec Ideal S256x128 .f32) (ix2 k q) := by
  obtain ⟨-, -, e10, e11, -⟩ := index_maps t
  have h : ((cfg0.win 1).blk t).view.emb (ix2 k q) = ix2 k q := funext fun a => Fin.ext (by
    match a with
    | ⟨0, _⟩ => show win0_1.index t (0 : Fin 2) * 256 + 1 * k.val = k.val; omega
    | ⟨1, _⟩ => show win0_1.index t (1 : Fin 2) * 128 + 1 * q.val = q.val; omega)
  show V c (Pipeline.arrRef spec0 1) (((cfg0.win 1).blk t).view.emb (ix2 k q)) = _
  rw [h]

/-! ## From the blocks to the array -/

/-- What point t writes back is block t of the host's product of the two whole arrays. -/
theorem flushed_eq (c : Dev nD) (t : Fin cfg0.N) :
    (dat0 (F := Ideal) V c).flushed 2 t
      = ((cfg0.win 2).blk t).view.read (Elt Ideal)
          (Host.dotGeneral (F := Ideal) (φ₁ := .f32) (φ₂ := .f32) Cert.ReferenceIdeal.dot_S100000x256_S256x128_S100000x128_1_0_0_1_n_n none
            (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_offsets]
  simp only [View.ld_unit_zero (S := S5000x256) zero_offsets, View.ld_unit_zero (S := S256x128) zero_offsets]
  obtain ⟨-, -, -, -, e20, e21⟩ := index_maps t
  funext y
  show k0_pay1 (F := Ideal) (iblk0 (F := Ideal) V c 0 t) (iblk0 (F := Ideal) V c 1 t) y
    = Host.dotGeneral (F := Ideal) (φ₁ := .f32) (φ₂ := .f32) Cert.ReferenceIdeal.dot_S100000x256_S256x128_S100000x128_1_0_0_1_n_n none
        (V c (Pipeline.arrRef spec0 0)) (V c (Pipeline.arrRef spec0 1)) (((cfg0.win 2).blk t).view.emb y)
  refine block_entry (iblk0 (F := Ideal) V c 0 t) (iblk0 (F := Ideal) V c 1 t) (V c (Pipeline.arrRef spec0 0)) (V c (Pipeline.arrRef spec0 1)) t.val
    (left_block V c t) (right_block V c t) y (((cfg0.win 2).blk t).view.emb y) ?_ ?_
  · show win0_2.index t (0 : Fin 2) * 5000 + 1 * (y 0).val = 5000 * t.val + (y 0).val
    omega
  · show win0_2.index t (1 : Fin 2) * 128 + 1 * (y 1).val = (y 1).val
    omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v14).slice (win0_2.rect t)).set ↔ _
  rw [View.set_slice_whole, Rect.mem_set_unit]
  exact Iff.rfl

/-- The 20 blocks tile the output array: row r is in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e20, e21⟩ := index_maps t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After its 20 grid points region 0's output array is the product of the two arrays it was entered with. -/
theorem value (c : Dev nD) :
    (dat0 (F := Ideal) V c).arrAt 2 cfg0.N
      = Host.dotGeneral (F := Ideal) (φ₁ := .f32) (φ₂ := .f32) Cert.ReferenceIdeal.dot_S100000x256_S256x128_S100000x128_1_0_0_1_n_n none
          (V c (Pipeline.arrRef spec0 0)) (V c (Pipeline.arrRef spec0 1)) :=
  (dat0 (F := Ideal) V c).arrAt_eq_of_cover 2 _ (fun t _ => flushed_eq V c t) cover

end Cert.Bridge.Region0

end
-- ==== Proof.RegionMatmulB.lean ====
/-
  Region 2 of the kernel's program is a matrix product tiled over the node axis: grid point t multiplies rows
  5000·t … 5000·t + 4999 of the left array by the whole right array and writes that block of the output. Read at the
  exact reals the change of format to bf16 is the identity, so the whole output array is the host's dot_general of the two arrays
  the region finds: entry (n, j) is the sum over k of left (n, k) · right (k, j).

  The proof: the body's arithmetic at an entry of a block is the plain sum of products along the shared axis (the format
  change is the identity, the accumulator is zero, the contraction index is its one coordinate); the left window's block at
  point t is rows 5000·t … of the left array and the right window's block is the whole right array, so what point t writes
  back is block t of ONE whole-array product; row r lies in block r / 5000, so the 20 blocks tile the output; and the host's
  dot_general read at an entry is the same sum.
-/
import proofs.«404412_j85572928405775_1_alg».proof.Proof.Gen.KernelIdeal.Frame
import proofs.«404412_j85572928405775_1_alg».proof.ReferenceIdeal
import proofs.«404412_j85572928405775_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.Bridge.Region2

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-! ## The two contractions, index by index -/

/-- Row `j 0` of a left block with the contraction coordinate `k` in the column. -/
abbrev lrow (j : S5000x128.Idx) (k : Fin 128) : S5000x128.Idx := fun a => match a with
  | ⟨0, _⟩ => ⟨(j 0).val, (j 0).isLt⟩
  | ⟨1, _⟩ => ⟨k.val, k.isLt⟩
/-- Column `j 1` of the right array with the contraction coordinate `k` in the row. -/
abbrev rcol (j : S5000x128.Idx) (k : Fin 128) : S128x128.Idx := fun a => match a with
  | ⟨0, _⟩ => ⟨k.val, k.isLt⟩
  | ⟨1, _⟩ => ⟨(j 1).val, (j 1).isLt⟩

theorem lhs_blk_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_blk_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_blk_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's arithmetic at an entry of the block: the change of format is the identity on the extended reals and the
    accumulator is zero, so the entry is the plain sum of products along the contraction. -/
theorem pay_apply (x0 : Vec Ideal S5000x128 .f32) (x1 : Vec Ideal S128x128 .f32) (j : S5000x128.Idx) :
    k2_pay1 (F := Ideal) x0 x1 j = ∑ k : Fin 128, x0 (lrow j k) * x1 (rcol j k) := by
  unfold k2_pay1
  rw [shapeCast_self]
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lrow j k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx j ((ValueIdx.contrEquiv1 dot_S5000x128_S128x128_S5000x128_1_0_0_1_n_n 128 rfl rfl).symm k) = rcol j k := funext fun a => Fin.ext (by
    match a with
    | ⟨0, _⟩ => exact (rhs_blk_0 _ _).trans hk
    | ⟨1, _⟩ => exact rhs_blk_1 _ _)
  rw [el, er]
  rfl

/-- Row `i 0` of the left array with the contraction coordinate `k` in the column. -/
abbrev arow (i : S100000x128.Idx) (k : Fin 128) : S100000x128.Idx := fun a => match a with
  | ⟨0, _⟩ => ⟨(i 0).val, (i 0).isLt⟩
  | ⟨1, _⟩ => ⟨k.val, k.isLt⟩
/-- Column `i 1` of the right array with the contraction coordinate `k` in the row. -/
abbrev bcol (i : S100000x128.Idx) (k : Fin 128) : S128x128.Idx := fun a => match a with
  | ⟨0, _⟩ => ⟨k.val, k.isLt⟩
  | ⟨1, _⟩ => ⟨(i 1).val, (i 1).isLt⟩

theorem lhs_arr_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem lhs_arr_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_arr_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_arr_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The product of a [100000, 128] array by a [128, 128] array, entry by entry: the sum over the shared axis. -/
abbrev matProd (A : Vec Ideal S100000x128 .f32) (B : Vec Ideal S128x128 .f32) : Vec Ideal S100000x128 .f32 :=
  fun i => ∑ k : Fin 128, A (arow i k) * B (bcol i k)

/-- The host's dot_general of the two arrays is that product. -/
theorem host_eq (A : Vec Ideal S100000x128 .f32) (B : Vec Ideal S128x128 .f32) :
    Host.dotGeneral (F := Ideal) (φ₁ := .f32) (φ₂ := .f32) Cert.ReferenceIdeal.dot_S100000x128_S128x128_S100000x128_1_0_0_1_n_n none A B = matProd A B := by
  funext i
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = arow i k := funext fun a => Fin.ext (by
    match a with
    | ⟨0, _⟩ => exact lhs_arr_0 _ _
    | ⟨1, _⟩ => exact (lhs_arr_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = bcol i k := funext fun a => Fin.ext (by
    match a with
    | ⟨0, _⟩ => exact (rhs_arr_0 _ _).trans hk
    | ⟨1, _⟩ => exact rhs_arr_1 _ _)
  rw [el, er]

/-! ## From the blocks to the array -/

theorem hz : (![0, 0] : Fin 2 → Nat) = fun _ => 0 := funext fun a => by fin_cases a <;> rfl

/-- The printed index maps over the 20 points: the left and the output windows are at block row `t`, the right window
    stays at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t` is rows `5000·t … 5000·t + 4999` of the left array. -/
theorem left_blk_apply (c : Dev nD) (t : Fin cfg2.N) (x : S5000x128.Idx) (i : S100000x128.Idx)
    (h0 : (i 0).val = 5000 * t.val + (x 0).val) (h1 : (i 1).val = (x 1).val) :
    (iblk2 V c 0 t : Vec Ideal S5000x128 .f32) x = (V c (Pipeline.arrRef spec2 0) : S100000x128.Idx → Elt Ideal .f32) i := by
  obtain ⟨e0, e1, -⟩ := idx_facts t
  unfold iblk2
  rw [View.read_apply]
  refine congrArg (V c (Pipeline.arrRef spec2 0) : S100000x128.Idx → Elt Ideal .f32) (funext fun a => Fin.ext ?_)
  match a with
  | ⟨0, _⟩ => show win2_0.index t (0 : Fin 2) * 5000 + 1 * (x 0).val = (i 0).val; omega
  | ⟨1, _⟩ => show win2_0.index t (1 : Fin 2) * 128 + 1 * (x 1).val = (i 1).val; omega

/-- The right window's block at every point is the whole right array. -/
theorem right_blk_apply (c : Dev nD) (t : Fin cfg2.N) (x : S128x128.Idx) (i : S128x128.Idx)
    (h0 : (i 0).val = (x 0).val) (h1 : (i 1).val = (x 1).val) :
    (iblk2 V c 1 t : Vec Ideal S128x128 .f32) x = (V c (Pipeline.arrRef spec2 1) : S128x128.Idx → Elt Ideal .f32) i := by
  obtain ⟨-, -, e2, e3, -⟩ := idx_facts t
  unfold iblk2
  rw [View.read_apply]
  refine congrArg (V c (Pipeline.arrRef spec2 1) : S128x128.Idx → Elt Ideal .f32) (funext fun a => Fin.ext ?_)
  match a with
  | ⟨0, _⟩ => show win2_1.index t (0 : Fin 2) * 128 + 1 * (x 0).val = (i 0).val; omega
  | ⟨1, _⟩ => show win2_1.index t (1 : Fin 2) * 128 + 1 * (x 1).val = (i 1).val; omega

/-- What point `t` writes back is block `t` of the product of the two arrays. -/
theorem flushed_eq (c : Dev nD) (t : Fin cfg2.N) :
    (dat2 V c).flushed 2 t = ((cfg2.win 2).blk t).view.read (Elt Ideal)
      (matProd (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx_facts t
  funext j
  show k2_pay1 (F := Ideal) (iblk2 V c 0 t) (iblk2 V c 1 t) j
    = matProd (V c (Pipeline.arrRef spec2 0)) (V c (Pipeline.arrRef spec2 1)) (((cfg2.win 2).blk t).view.emb j)
  refine (pay_apply (iblk2 V c 0 t) (iblk2 V c 1 t) j).trans ?_
  refine Finset.sum_congr rfl fun k _ => ?_
  have hl := left_blk_apply V c t (lrow j k) (arow (((cfg2.win 2).blk t).view.emb j) k)
    (by show win2_2.index t (0 : Fin 2) * 5000 + 1 * (j 0).val = 5000 * t.val + (j 0).val; omega) rfl
  have hr := right_blk_apply V c t (rcol j k) (bcol (((cfg2.win 2).blk t).view.emb j) k) rfl
    (by show win2_2.index t (1 : Fin 2) * 128 + 1 * (j 1).val = (j 1).val; omega)
  rw [hl, hr]

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v40).slice (win2_2.rect t)).set ↔ _
  rw [View.set_slice_whole, Rect.mem_set_unit]
  exact Iff.rfl

/-- The 20 blocks tile the output array: row `r` is in block `r / 5000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by show (i 0).val / 5000 < grid2.N; rw [N_2]; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After its 20 grid points region 2's output array is the product of the two arrays it was entered with. -/
theorem value (c : Dev nD) :
    (dat2 (F := Ideal) V c).arrAt 2 cfg2.N
      = Host.dotGeneral (F := Ideal) (φ₁ := .f32) (φ₂ := .f32) Cert.ReferenceIdeal.dot_S100000x128_S128x128_S100000x128_1_0_0_1_n_n none
          (V c (Pipeline.arrRef spec2 0)) (V c (Pipeline.arrRef spec2 1)) := by
  rw [host_eq]
  exact (dat2 V c).arrAt_eq_of_cover 2 (matProd (V c (Pipeline.arrRef spec2 0)) (V c (Pipeline.arrRef spec2 1)))
    (fun t _ => flushed_eq V c t) cover

end Cert.Bridge.Region2

end
-- ==== Proof.ActRef.lean ====
/-
  The reference's bias add and leaky rectifier as ONE function of the aggregated features `y` [100000, 128] and the bias
  laid out as a row `b` [1, 128]: with z = y + b (the row repeated down the 100000 nodes),
  the result is z where z ≥ 0 and 0.01·z (the f32 word 0x3C23D70A) elsewhere. These are the reference's own
  operations, in its own order, so that its two layers are this function by unfolding.
-/
import proofs.«404412_j85572928405775_1_alg».proof.ReferenceIdeal
import proofs.«404412_j85572928405775_1_alg».proof.Proof.Gen.ReferenceIdeal

set_option maxRecDepth 16384

noncomputable section

namespace Cert.Bridge

open Cert.ReferenceIdeal Cert.ReferenceIdeal.Facts₀
open Idealize.ShloMosaic

variable {F : FTy → Type} [FloatOps F]

/-- z = y + b, the bias row repeated down the nodes. -/
def biasRef (y : FVec F S100000x128 .f32) (b : FVec F S1x128 .f32) : FVec F S100000x128 .f32 :=
  addf y (broadcastInDim S100000x128 ![0, 1] bcast_S1x128_S100000x128_0_1 b)

/-- The layer's output: z where z ≥ 0, the slope times z elsewhere. -/
def actRef (y : FVec F S100000x128 .f32) (b : FVec F S1x128 .f32) : FVec F S100000x128 .f32 :=
  select (cmpf .oge (biasRef y b) (broadcastInDim S100000x128 ![] bcast_S_S100000x128 (constant S_ .f32 0x00000000#32)))
    (biasRef y b)
    (mulf (broadcastInDim S100000x128 ![] bcast_S_S100000x128 (constant S_ .f32 0x3C23D70A#32)) (biasRef y b))

end Cert.Bridge

end
-- ==== Proof.RegionActA.lean ====
/-
  Region 1 of the kernel's program adds the bias row to a block of 5000 nodes and applies the leaky rectifier,
  point by point; its 20 blocks tile the [100000, 128] output. So the whole output array is the reference's
  bias-and-activation function (Cert.Bridge.actRef) of the two arrays the region finds.

  The proof reads both sides at one entry (row, column): with z the feature entry plus the bias row's entry in the
  same column, each side is z where z ≥ 0 and the slope word times z elsewhere; the two float words are kept as
  words and never evaluated. Grid point t's block is rows 5000·t … 5000·t + 4999 of the array and the bias row is
  read whole at every point, so what point t writes back is block t of the reference's function; row r lies in
  block r / 5000, so the blocks cover the array.
-/
import proofs.«404412_j85572928405775_1_alg».proof.Proof.Gen.KernelIdeal.Frame
import proofs.«404412_j85572928405775_1_alg».proof.Proof.ActRef
import Idealize.ShloMosaic.Lib.Pipeline.Value
import Idealize.ShloMosaic.Lib.ValueIdx
import Idealize.ShloMosaic.Lib.ValueLayout

set_option maxRecDepth 16384

noncomputable section

namespace Cert.Bridge.Region1

open Cert.KernelIdeal Cert.KernelIdeal.Gen
open Idealize.ShloMosaic Idealize.ShloMosaic.TcCoe Idealize.SL.Sem
open Idealize.ShloMosaic.ValueIdx

/-- The kernel's block result at row p, column q: with z the block entry plus the bias row's entry in column q,
    z where z ≥ 0 and the slope times z elsewhere. -/
theorem payload_at (x0 : FVec Ideal S5000x128 .f32) (x1 : FVec Ideal S1x128 .f32) (p : Fin 5000) (q : Fin 128) :
    k1_pay1 (F := Ideal) x0 x1 (ix2 p q)
      = Scalar.select (FloatOps.cmpf .oge (x0 (ix2 p q) + x1 (ix2 0 q)) (Ideal.ofBits .f32 0x00000000#32))
          (x0 (ix2 p q) + x1 (ix2 0 q)) (Ideal.ofBits .f32 0x3C23D70A#32 * (x0 (ix2 p q) + x1 (ix2 0 q))) := by
  have hrow : broadcastTo S5000x128 x1 broadcasts_S1x128_S5000x128 (ix2 p q) = x1 (ix2 0 q) :=
    broadcastTo_apply x1 broadcasts_S1x128_S5000x128 (ix2 p q) (ix2 0 q)
      (fun a => match a with | ⟨0, _⟩ => rfl | ⟨1, _⟩ => rfl)
  unfold k1_pay1
  simp only [shapeCast_self]
  refine (select_apply _ _ _ _).trans ?_
  refine (congrArg (fun z => Scalar.select (FloatOps.cmpf .oge z (Ideal.ofBits .f32 0x00000000#32)) z
    (Ideal.ofBits .f32 0x3C23D70A#32 * z)) ?_)
  exact (addf_apply _ _ _).trans (congrArg (fun w => x0 (ix2 p q) + w) hrow)

/-- The reference's function at row r, column q: the same expression of the array's entry and the bias row's entry
    in column q; the row broadcast reads column q of the row, the two scalar broadcasts read their words. -/
theorem ref_at (y : FVec Ideal Cert.ReferenceIdeal.S100000x128 .f32) (b : FVec Ideal Cert.ReferenceIdeal.S1x128 .f32) (r : Fin 100000) (q : Fin 128) :
    Cert.Bridge.actRef (F := Ideal) y b (ix2 r q)
      = Scalar.select (FloatOps.cmpf .oge (y (ix2 r q) + b (ix2 0 q)) (Ideal.ofBits .f32 0x00000000#32))
          (y (ix2 r q) + b (ix2 0 q)) (Ideal.ofBits .f32 0x3C23D70A#32 * (y (ix2 r q) + b (ix2 0 q))) := by
  have hrow : broadcastInDim Cert.ReferenceIdeal.S100000x128 ![0, 1] Cert.ReferenceIdeal.Facts₀.bcast_S1x128_S100000x128_0_1 b (ix2 r q) = b (ix2 0 q) :=
    broadcastInDim_apply ![0, 1] Cert.ReferenceIdeal.Facts₀.bcast_S1x128_S100000x128_0_1 b (ix2 r q) (ix2 0 q)
      (fun a => match a with | ⟨0, _⟩ => rfl | ⟨1, _⟩ => rfl)
  have hsc : ∀ w : BitVec 32, broadcastInDim Cert.ReferenceIdeal.S100000x128 ![] Cert.ReferenceIdeal.Facts₀.bcast_S_S100000x128
      (constant (F := Ideal) Cert.ReferenceIdeal.S_ .f32 w) (ix2 r q) = Ideal.ofBits .f32 w := fun w =>
    (broadcastInDim_apply (s := Cert.ReferenceIdeal.S_) (t := Cert.ReferenceIdeal.S100000x128) ![] Cert.ReferenceIdeal.Facts₀.bcast_S_S100000x128
      (constant (F := Ideal) Cert.ReferenceIdeal.S_ .f32 w) (ix2 r q) (fun a => a.elim0) (fun a => a.elim0)).trans rfl
  have hz : Cert.Bridge.biasRef (F := Ideal) y b (ix2 r q) = y (ix2 r q) + b (ix2 0 q) :=
    (addf_apply _ _ _).trans (congrArg (fun w => y (ix2 r q) + w) hrow)
  unfold Cert.Bridge.actRef
  refine (select_apply _ _ _ _).trans ?_
  rw [cmpf_apply, mulf_apply, hsc, hsc, hz]

/-- One entry of the block result against one entry of the reference's function: equal as soon as the block's
    entry is the array's entry there, the bias rows agree, and the two columns are the same. -/
theorem entry_eq (x0 : FVec Ideal S5000x128 .f32) (x1 : FVec Ideal S1x128 .f32)
    (y : FVec Ideal Cert.ReferenceIdeal.S100000x128 .f32) (b : FVec Ideal Cert.ReferenceIdeal.S1x128 .f32)
    (j : S5000x128.Idx) (i : Cert.ReferenceIdeal.S100000x128.Idx)
    (h0 : x0 j = y i) (h1 : ∀ q : Fin 128, x1 (ix2 0 q) = b (ix2 0 q)) (hq : (i 1).val = (j 1).val) :
    k1_pay1 (F := Ideal) x0 x1 j = Cert.Bridge.actRef (F := Ideal) y b i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hq
  rw [payload_at, ref_at, h0, h1]

variable (V : (c : Dev nD) → (b : Ref sig .tc) → Buf (Elt Ideal) ((c : Thread nD τ).loc b))

/-- The body's loads and its store start at offset zero on both axes. -/
theorem hz : (![0, 0] : Fin 2 → Nat) = fun _ => 0 := funext fun a => by fin_cases a <;> rfl

/-- The printed index maps over the 20 grid points: the feature block and the output block are block (t, 0),
    the bias row is block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The reference's bias-and-activation of the two arrays the region is entered with. -/
abbrev G (c : Dev nD) : FVec Ideal Cert.ReferenceIdeal.S100000x128 .f32 :=
  Cert.Bridge.actRef (F := Ideal) (V c (Pipeline.arrRef spec1 0)) (V c (Pipeline.arrRef spec1 1))

/-- What grid point t writes back is block t of that function. -/
theorem flushed_eq (c : Dev nD) (t : Fin cfg1.N) :
    (dat1 (F := Ideal) V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e00, e01, e10, e11, e20, e21⟩ := idx_facts t
  funext j
  show k1_pay1 (F := Ideal) (iblk1 V c 0 t) (iblk1 V c 1 t) j = G V c (((cfg1.win 2).blk t).view.emb j)
  refine entry_eq (iblk1 V c 0 t) (iblk1 V c 1 t) (V c (Pipeline.arrRef spec1 0)) (V c (Pipeline.arrRef spec1 1)) j
    (((cfg1.win 2).blk t).view.emb j) ?_ ?_ ?_
  · show V c (Pipeline.arrRef spec1 0) (((cfg1.win 0).blk t).view.emb j)
      = V c (Pipeline.arrRef spec1 0) (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; rw [e00, e20]
    | ⟨1, _⟩ => show win1_0.index t (1 : Fin 2) * 128 + 1 * (j 1).val = win1_2.index t (1 : Fin 2) * 128 + 1 * (j 1).val; rw [e01, e21]
  · intro q
    show V c (Pipeline.arrRef spec1 1) (((cfg1.win 1).blk t).view.emb (ix2 0 q)) = V c (Pipeline.arrRef spec1 1) (ix2 0 q)
    refine congrArg _ (funext fun a => Fin.ext ?_)
    match a with
    | ⟨0, _⟩ => show win1_1.index t (0 : Fin 2) * 1 + 1 * 0 = 0; rw [e10]
    | ⟨1, _⟩ => show win1_1.index t (1 : Fin 2) * 128 + 1 * q.val = q.val; rw [e11]; omega
  · show win1_2.index t (1 : Fin 2) * 128 + 1 * (j 1).val = (j 1).val
    rw [e21]; omega

/-- An entry of the output array lies in grid point t's block iff on each axis its coordinate is in the block's range. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v39).slice (win1_2.rect t)).set ↔ _
  rw [View.set_slice_whole, Rect.mem_set_unit]
  exact Iff.rfl

/-- The 20 blocks of 5000 rows tile the 100000 rows: row r is in block r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 5000 < 20 := by omega
  refine ⟨⟨(i 0).val / 5000, lt_of_lt_of_eq hlt N_1.symm⟩, flush1_2 _, ?_⟩
  obtain ⟨-, -, -, -, e20, e21⟩ := idx_facts ⟨(i 0).val / 5000, lt_of_lt_of_eq hlt N_1.symm⟩
  rw [mem_blk]
  intro a
  match a with
  | ⟨0, _⟩ =>
    show win1_2.index _ (0 : Fin 2) * 5000 ≤ (i 0).val ∧ (i 0).val < win1_2.index _ (0 : Fin 2) * 5000 + 5000
    rw [e20]
    show (i 0).val / 5000 * 5000 ≤ (i 0).val ∧ (i 0).val < (i 0).val / 5000 * 5000 + 5000
    omega
  | ⟨1, _⟩ =>
    show win1_2.index _ (1 : Fin 2) * 128 ≤ (i 1).val ∧ (i 1).val < win1_2.index _ (1 : Fin 2) * 128 + 128
    rw [e21]
    omega

/-- After its 20 grid points region 1's output array is the bias-and-activation of the two arrays it was entered with. -/
theorem value (c : Dev nD) :
    (dat1 (F := Ideal) V c).arrAt 2 cfg1.N
      = Cert.Bridge.actRef (F := Ideal) (V c (Pipeline.arrRef spec1 0)) (V c (Pipeline.arrRef spec1 1)) :=
  (dat1 (F := Ideal) V c).arrAt_eq_of_cover 2 (G V c) (fun t _ => flushed_eq V c t) cover

end Cert.Bridge.Region1

end
-- ==== Proof.RegionActB.lean ====
/-
  Region 3 of the kernel's program adds the bias row to a block of 5000 nodes and applies the leaky rectifier,
  point by point; its 20 blocks tile the [100000, 128] output. So the whole output array is the reference's
  bias-and-activation function (Cert.Bridge.actRef) of the two arrays the region finds.

  Both sides are compared entry by entry. At (row, column) each is the same expression of z, the feature entry plus
  the bias row's entry in that column: z itself where z ≥ 0, the slope word times z elsewhere (the zero word and the
  slope word stay words on both sides). The block of grid point t holds rows 5000·t to 5000·t + 4999 and the whole
  bias row, so the point's write-back is block t of the reference's function, and since row r belongs to block
  r / 5000 the twenty write-backs fill the array.
-/
import proofs.«404412_j85572928405775_1_alg».proof.Proof.Gen.KernelIdeal.Frame
import proofs.«404412_j85572928405775_1_alg».proof.Proof.ActRef
import Idealize.ShloMosaic.Lib.Pipeline.Value
import Idealize.ShloMosaic.Lib.ValueIdx
import Idealize.ShloMosaic.Lib.ValueLayout

set_option maxRecDepth 16384

noncomputable section

namespace Cert.Bridge.Region3

open Cert.KernelIdeal Cert.KernelIdeal.Gen
open Idealize.ShloMosaic Idealize.ShloMosaic.TcCoe Idealize.SL.Sem
open Idealize.ShloMosaic.ValueIdx

/-- The leaky rectifier of one biased value z: z where z ≥ 0, the slope word times z elsewhere. -/
def leaky (z : Ideal .f32) : Ideal .f32 :=
  Scalar.select (FloatOps.cmpf .oge z (Ideal.ofBits .f32 0x00000000#32)) z (Ideal.ofBits .f32 0x3C23D70A#32 * z)

/-- The bias row repeated down a block of 5000 rows reads, at (p, q), the row's entry in column q. -/
theorem row_in_block (x1 : FVec Ideal S1x128 .f32) (p : Fin 5000) (q : Fin 128) :
    broadcastTo S5000x128 x1 broadcasts_S1x128_S5000x128 (ix2 p q) = x1 (ix2 0 q) :=
  broadcastTo_apply x1 broadcasts_S1x128_S5000x128 (ix2 p q) (ix2 0 q)
    (fun a => match a with | ⟨0, _⟩ => rfl | ⟨1, _⟩ => rfl)

/-- The block result at (p, q) is the leaky rectifier of the block's entry plus the bias entry of column q. -/
theorem block_at (x0 : FVec Ideal S5000x128 .f32) (x1 : FVec Ideal S1x128 .f32) (p : Fin 5000) (q : Fin 128) :
    k3_pay1 (F := Ideal) x0 x1 (ix2 p q) = leaky (x0 (ix2 p q) + x1 (ix2 0 q)) := by
  unfold k3_pay1
  simp only [shapeCast_self]
  refine (select_apply _ _ _ _).trans ?_
  refine congrArg leaky ?_
  exact (addf_apply _ _ _).trans (congrArg (fun w => x0 (ix2 p q) + w) (row_in_block x1 p q))

/-- The bias row repeated down the 100000 rows of the array reads, at (r, q), the row's entry in column q. -/
theorem row_in_array (b : FVec Ideal Cert.ReferenceIdeal.S1x128 .f32) (r : Fin 100000) (q : Fin 128) :
    broadcastInDim Cert.ReferenceIdeal.S100000x128 ![0, 1] Cert.ReferenceIdeal.Facts₀.bcast_S1x128_S100000x128_0_1 b (ix2 r q)
      = b (ix2 0 q) :=
  broadcastInDim_apply ![0, 1] Cert.ReferenceIdeal.Facts₀.bcast_S1x128_S100000x128_0_1 b (ix2 r q) (ix2 0 q)
    (fun a => match a with | ⟨0, _⟩ => rfl | ⟨1, _⟩ => rfl)

/-- A scalar constant spread over the array reads its word at every entry. -/
theorem word_in_array (w : BitVec 32) (r : Fin 100000) (q : Fin 128) :
    broadcastInDim Cert.ReferenceIdeal.S100000x128 ![] Cert.ReferenceIdeal.Facts₀.bcast_S_S100000x128
      (constant (F := Ideal) Cert.ReferenceIdeal.S_ .f32 w) (ix2 r q) = Ideal.ofBits .f32 w :=
  (broadcastInDim_apply (s := Cert.ReferenceIdeal.S_) (t := Cert.ReferenceIdeal.S100000x128) ![]
    Cert.ReferenceIdeal.Facts₀.bcast_S_S100000x128 (constant (F := Ideal) Cert.ReferenceIdeal.S_ .f32 w) (ix2 r q)
    (fun a => a.elim0) (fun a => a.elim0)).trans rfl

/-- The reference's function at (r, q) is the leaky rectifier of the array's entry plus the bias entry of column q. -/
theorem array_at (y : FVec Ideal Cert.ReferenceIdeal.S100000x128 .f32) (b : FVec Ideal Cert.ReferenceIdeal.S1x128 .f32)
    (r : Fin 100000) (q : Fin 128) :
    Cert.Bridge.actRef (F := Ideal) y b (ix2 r q) = leaky (y (ix2 r q) + b (ix2 0 q)) := by
  have hsum : Cert.Bridge.biasRef (F := Ideal) y b (ix2 r q) = y (ix2 r q) + b (ix2 0 q) :=
    (addf_apply _ _ _).trans (congrArg (fun w => y (ix2 r q) + w) (row_in_array b r q))
  unfold Cert.Bridge.actRef
  refine (select_apply _ _ _ _).trans ?_
  rw [cmpf_apply, mulf_apply, word_in_array, word_in_array, hsum]
  rfl

/-- A block entry and an array entry in the same column give the same result once the block's entry is the array's
    and the block's bias row is the array's bias row. -/
theorem same_entry (x0 : FVec Ideal S5000x128 .f32) (x1 : FVec Ideal S1x128 .f32)
    (y : FVec Ideal Cert.ReferenceIdeal.S100000x128 .f32) (b : FVec Ideal Cert.ReferenceIdeal.S1x128 .f32)
    (j : S5000x128.Idx) (i : Cert.ReferenceIdeal.S100000x128.Idx)
    (hfeat : x0 j = y i) (hbias : ∀ q : Fin 128, x1 (ix2 0 q) = b (ix2 0 q)) (hcol : (i 1).val = (j 1).val) :
    k3_pay1 (F := Ideal) x0 x1 j = Cert.Bridge.actRef (F := Ideal) y b i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hcol
  rw [block_at, array_at, hfeat, hbias]

variable (V : (c : Dev nD) → (b : Ref sig .tc) → Buf (Elt Ideal) ((c : Thread nD τ).loc b))

/-- Offset zero on both axes: where the body's loads and its one store begin. -/
theorem zero_offsets : (![0, 0] : Fin 2 → Nat) = fun _ => 0 := funext fun a => by fin_cases a <;> rfl

/-- The printed index maps at each of the 20 grid points: features and output at block (t, 0), the bias row at (0, 0). -/
theorem block_indices : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = t.val ∧ win3_2.index t (1 : Fin 2) = 0) :=
  (by decide +kernel : ∀ t : Fin grid3.N, _)

/-- The reference's bias-and-activation of the two arrays region 3 is entered with. -/
abbrev target (c : Dev nD) : FVec Ideal Cert.ReferenceIdeal.S100000x128 .f32 :=
  Cert.Bridge.actRef (F := Ideal) (V c (Pipeline.arrRef spec3 0)) (V c (Pipeline.arrRef spec3 1))

/-- Grid point t writes back block t of that function. -/
theorem writeback (c : Dev nD) (t : Fin cfg3.N) :
    (dat3 (F := Ideal) V c).flushed 2 t = ((cfg3.win 2).blk t).view.read (Elt Ideal) (target V c) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨⟨f0, f1⟩, ⟨b0, b1⟩, ⟨o0, o1⟩⟩ := block_indices t
  funext j
  show k3_pay1 (F := Ideal) (iblk3 V c 0 t) (iblk3 V c 1 t) j = target V c (((cfg3.win 2).blk t).view.emb j)
  refine same_entry (iblk3 V c 0 t) (iblk3 V c 1 t) (V c (Pipeline.arrRef spec3 0)) (V c (Pipeline.arrRef spec3 1)) j
    (((cfg3.win 2).blk t).view.emb j) ?_ ?_ ?_
  · -- the feature block's entry sits where the output block's entry sits
    show V c (Pipeline.arrRef spec3 0) (((cfg3.win 0).blk t).view.emb j)
      = V c (Pipeline.arrRef spec3 0) (((cfg3.win 2).blk t).view.emb j)
    refine congrArg _ (funext fun a => Fin.ext ?_)
    match a with
    | ⟨0, _⟩ =>
      show win3_0.index t (0 : Fin 2) * 5000 + 1 * (j 0).val = win3_2.index t (0 : Fin 2) * 5000 + 1 * (j 0).val
      rw [f0, o0]
    | ⟨1, _⟩ =>
      show win3_0.index t (1 : Fin 2) * 128 + 1 * (j 1).val = win3_2.index t (1 : Fin 2) * 128 + 1 * (j 1).val
      rw [f1, o1]
  · -- the bias block is the whole bias row
    intro q
    show V c (Pipeline.arrRef spec3 1) (((cfg3.win 1).blk t).view.emb (ix2 0 q)) = V c (Pipeline.arrRef spec3 1) (ix2 0 q)
    refine congrArg _ (funext fun a => Fin.ext ?_)
    match a with
    | ⟨0, _⟩ => show win3_1.index t (0 : Fin 2) * 1 + 1 * 0 = 0; rw [b0]
    | ⟨1, _⟩ => show win3_1.index t (1 : Fin 2) * 128 + 1 * q.val = q.val; rw [b1]; omega
  · -- the output block keeps the column
    show win3_2.index t (1 : Fin 2) * 128 + 1 * (j 1).val = (j 1).val
    rw [o1]; omega

/-- Membership of an array entry in grid point t's output block, axis by axis. -/
theorem in_block (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v65).slice (win3_2.rect t)).set ↔ _
  rw [View.set_slice_whole, Rect.mem_set_unit]
  exact Iff.rfl

/-- Every entry of the array is in some grid point's block: row r is in block r / 5000, and 100000 = 20 · 5000. -/
theorem blocks_fill (i : S100000x128.Idx) :
    ∃ t : Fin cfg3.N, (cfg3.win 2).flush t = true ∧ i ∈ ((cfg3.win 2).blk t).view.set := by
  have hrow : (i 0).val < 100000 := (i 0).isLt
  have hcol : (i 1).val < 128 := (i 1).isLt
  have hpt : (i 0).val / 5000 < 20 := by omega
  refine ⟨⟨(i 0).val / 5000, lt_of_lt_of_eq hpt N_3.symm⟩, flush3_2 _, ?_⟩
  obtain ⟨-, -, ⟨o0, o1⟩⟩ := block_indices ⟨(i 0).val / 5000, lt_of_lt_of_eq hpt N_3.symm⟩
  rw [in_block]
  intro a
  match a with
  | ⟨0, _⟩ =>
    show win3_2.index _ (0 : Fin 2) * 5000 ≤ (i 0).val ∧ (i 0).val < win3_2.index _ (0 : Fin 2) * 5000 + 5000
    rw [o0]
    show (i 0).val / 5000 * 5000 ≤ (i 0).val ∧ (i 0).val < (i 0).val / 5000 * 5000 + 5000
    omega
  | ⟨1, _⟩ =>
    show win3_2.index _ (1 : Fin 2) * 128 ≤ (i 1).val ∧ (i 1).val < win3_2.index _ (1 : Fin 2) * 128 + 128
    rw [o1]
    omega

/-- After its 20 grid points region 3's output array is the bias-and-activation of the two arrays it was entered with. -/
theorem value (c : Dev nD) :
    (dat3 (F := Ideal) V c).arrAt 2 cfg3.N
      = Cert.Bridge.actRef (F := Ideal) (V c (Pipeline.arrRef spec3 0)) (V c (Pipeline.arrRef spec3 1)) :=
  (dat3 (F := Ideal) V c).arrAt_eq_of_cover 2 (target V c) (fun t _ => writeback V c t) blocks_fill

end Cert.Bridge.Region3

end
-- ==== Proof.Names.lean ====
/-
  Names for the kernel's ten argument arrays as a device holds them at launch, typed by their literal shapes, so that the
  reference's stage functions (functions of the argument arrays) can be applied to them.
-/
import proofs.«404412_j85572928405775_1_alg».proof.KernelIdeal

set_option maxRecDepth 16384

noncomputable section

namespace Cert.Bridge

open Cert.KernelIdeal
open Idealize.ShloMosaic Idealize.ShloMosaic.TcCoe Idealize.SL.Sem

variable {F : FTy → Type} [FloatOps F]
variable (m : (ℓ : Loc nD τ sig) → Buf (Elt F) ℓ) (c : Dev nD)

/-- The kernel's argument 0 (node features x) on device `c` at launch. -/
abbrev a0 : (⟨S100000x256, .f32⟩ : BufTy).Contents (Elt F) := m ((c : Thread nD τ).loc main_arg0)
/-- The kernel's argument 1 (edge_index) on device `c` at launch. -/
abbrev a1 : (⟨S2x600000, .i32⟩ : BufTy).Contents (Elt F) := m ((c : Thread nD τ).loc main_arg1)
/-- The kernel's argument 2 (edge_weight) on device `c` at launch. -/
abbrev a2 : (⟨S600000, .f32⟩ : BufTy).Contents (Elt F) := m ((c : Thread nD τ).loc main_arg2)
/-- The kernel's argument 3 (batch) on device `c` at launch. -/
abbrev a3 : (⟨S100000, .i32⟩ : BufTy).Contents (Elt F) := m ((c : Thread nD τ).loc main_arg3)
/-- The kernel's argument 4 (W1) on device `c` at launch. -/
abbrev a4 : (⟨S256x128, .f32⟩ : BufTy).Contents (Elt F) := m ((c : Thread nD τ).loc main_arg4)
/-- The kernel's argument 5 (b1) on device `c` at launch. -/
abbrev a5 : (⟨S128, .f32⟩ : BufTy).Contents (Elt F) := m ((c : Thread nD τ).loc main_arg5)
/-- The kernel's argument 6 (W2) on device `c` at launch. -/
abbrev a6 : (⟨S128x128, .f32⟩ : BufTy).Contents (Elt F) := m ((c : Thread nD τ).loc main_arg6)
/-- The kernel's argument 7 (b2) on device `c` at launch. -/
abbrev a7 : (⟨S128, .f32⟩ : BufTy).Contents (Elt F) := m ((c : Thread nD τ).loc main_arg7)
/-- The kernel's argument 8 (Wl) on device `c` at launch. -/
abbrev a8 : (⟨S128x10, .f32⟩ : BufTy).Contents (Elt F) := m ((c : Thread nD τ).loc main_arg8)
/-- The kernel's argument 9 (bl) on device `c` at launch. -/
abbrev a9 : (⟨S10, .f32⟩ : BufTy).Contents (Elt F) := m ((c : Thread nD τ).loc main_arg9)

end Cert.Bridge

end
-- ==== Proof.ChainA.lean ====
/-
  The kernel's program up to the end of its first matrix product, read as values.

  Before region 0 the host operations compute, from edge_index and edge_weight alone: the source-node indices (row 0 of
  edge_index), the target-node indices (row 1), and the normalisation dis = deg^(-1/2) where deg > 0 and 0 elsewhere, deg
  the sum of the weights of the edges into each node. They are the very operations the reference applies first, so each
  of those buffers holds the reference's stage function of the argument arrays; no operation writes an argument array.
  Region 0 then leaves x · W1 in its output array and every other buffer as it found it.

  Nothing here depends on how floats are read: the statements hold at every float instance, the region's value entering
  as a hypothesis at that instance.
-/
import proofs.«404412_j85572928405775_1_alg».proof.Proof.Gen.KernelIdeal.Frame
import proofs.«404412_j85572928405775_1_alg».proof.Proof.Gen.ReferenceIdeal.Read
import proofs.«404412_j85572928405775_1_alg».proof.Proof.Names
import Idealize.ShloMosaic.Lib.StableHlo.Run

set_option maxRecDepth 16384

noncomputable section

namespace Cert.Bridge.ChainA

open Cert.KernelIdeal Cert.KernelIdeal.Gen
open Cert.ReferenceIdeal.Read
open Idealize.ShloMosaic Idealize.ShloMosaic.TcCoe Idealize.SL.Sem Idealize.ShloMosaic.StableHlo
open Cert.Bridge

variable {F : FTy → Type} [FloatOps F]
variable (m : (ℓ : Loc nD τ sig) → Buf (Elt F) ℓ) (ρ : Dev nD → PrngReg) (c : Dev nD)

/-- Reads a buffer at region 0's entry back through the four stretches of host operations before it. -/
macro "before_region0" : tactic =>
  `(tactic| (dsimp only [W4, W3, W2, W1]; simp only [hostOps0, hostOps0_1, hostOps0_2, hostOps0_3]; after_results_simp))

/-! ## At region 0's entry -/

theorem W4_arg0 : W4 m ρ c (Proc.devRef .tc main_arg0) = a0 m c := by before_region0 <;> rfl
theorem W4_arg2 : W4 m ρ c (Proc.devRef .tc main_arg2) = a2 m c := by before_region0 <;> rfl
theorem W4_arg3 : W4 m ρ c (Proc.devRef .tc main_arg3) = a3 m c := by before_region0 <;> rfl
theorem W4_arg4 : W4 m ρ c (Proc.devRef .tc main_arg4) = a4 m c := by before_region0 <;> rfl
theorem W4_arg5 : W4 m ρ c (Proc.devRef .tc main_arg5) = a5 m c := by before_region0 <;> rfl
theorem W4_arg6 : W4 m ρ c (Proc.devRef .tc main_arg6) = a6 m c := by before_region0 <;> rfl
theorem W4_arg7 : W4 m ρ c (Proc.devRef .tc main_arg7) = a7 m c := by before_region0 <;> rfl
theorem W4_arg8 : W4 m ρ c (Proc.devRef .tc main_arg8) = a8 m c := by before_region0 <;> rfl
theorem W4_arg9 : W4 m ρ c (Proc.devRef .tc main_arg9) = a9 m c := by before_region0 <;> rfl

/-- The source-node indices. -/
theorem W4_row : W4 m ρ c (Proc.devRef .tc main_v1) = val_main_v1 (F := F) (a1 m c) := by before_region0 <;> rfl
/-- The target-node indices. -/
theorem W4_col : W4 m ρ c (Proc.devRef .tc main_v3) = val_main_v3 (F := F) (a1 m c) := by before_region0 <;> rfl
set_option maxHeartbeats 4000000 in
/-- The normalisation dis. -/
theorem W4_dis : W4 m ρ c (Proc.devRef .tc main_v13) = val_main_v13 (F := F) (a1 m c) (a2 m c) := by
  before_region0 <;> rfl

/-! ## At region 0's exit -/

variable (hR0 : (∀ (V : (c : Dev nD) → (b : Ref sig .tc) → Buf (Elt F) ((c : Thread nD τ).loc b)) (c : Dev nD),
      (dat0 (F := F) V c).arrAt 2 cfg0.N
        = Host.dotGeneral (F := F) (φ₁ := .f32) (φ₂ := .f32) Cert.ReferenceIdeal.dot_S100000x256_S256x128_S100000x128_1_0_0_1_n_n none
            (V c (Pipeline.arrRef spec0 0)) (V c (Pipeline.arrRef spec0 1))))

include hR0 in
/-- Region 0's output: x · W1. -/
theorem W5_h : W5 m ρ c (Proc.devRef .tc main_v14) = val_main_v30 (F := F) (a0 m c) (a4 m c) := by
  refine (W5_arr m ρ c 2).trans ((hR0 (V4 m ρ) c).trans ?_)
  show Host.dotGeneral (F := F) (φ₁ := .f32) (φ₂ := .f32) _ none (W4 m ρ c (Proc.devRef .tc main_arg0)) (W4 m ρ c (Proc.devRef .tc main_arg4)) = _
  rw [W4_arg0 m ρ c, W4_arg4 m ρ c]; rfl

theorem W5_row : W5 m ρ c (Proc.devRef .tc main_v1) = val_main_v1 (F := F) (a1 m c) :=
  (W5_of_ne m ρ c main_v1 (by decide)).trans (W4_row m ρ c)
theorem W5_col : W5 m ρ c (Proc.devRef .tc main_v3) = val_main_v3 (F := F) (a1 m c) :=
  (W5_of_ne m ρ c main_v3 (by decide)).trans (W4_col m ρ c)
theorem W5_dis : W5 m ρ c (Proc.devRef .tc main_v13) = val_main_v13 (F := F) (a1 m c) (a2 m c) :=
  (W5_of_ne m ρ c main_v13 (by decide)).trans (W4_dis m ρ c)
theorem W5_arg2 : W5 m ρ c (Proc.devRef .tc main_arg2) = a2 m c := (W5_of_ne m ρ c main_arg2 (by decide)).trans (W4_arg2 m ρ c)
theorem W5_arg3 : W5 m ρ c (Proc.devRef .tc main_arg3) = a3 m c := (W5_of_ne m ρ c main_arg3 (by decide)).trans (W4_arg3 m ρ c)
theorem W5_arg5 : W5 m ρ c (Proc.devRef .tc main_arg5) = a5 m c := (W5_of_ne m ρ c main_arg5 (by decide)).trans (W4_arg5 m ρ c)
theorem W5_arg6 : W5 m ρ c (Proc.devRef .tc main_arg6) = a6 m c := (W5_of_ne m ρ c main_arg6 (by decide)).trans (W4_arg6 m ρ c)
theorem W5_arg7 : W5 m ρ c (Proc.devRef .tc main_arg7) = a7 m c := (W5_of_ne m ρ c main_arg7 (by decide)).trans (W4_arg7 m ρ c)
theorem W5_arg8 : W5 m ρ c (Proc.devRef .tc main_arg8) = a8 m c := (W5_of_ne m ρ c main_arg8 (by decide)).trans (W4_arg8 m ρ c)
theorem W5_arg9 : W5 m ρ c (Proc.devRef .tc main_arg9) = a9 m c := (W5_of_ne m ρ c main_arg9 (by decide)).trans (W4_arg9 m ρ c)

end Cert.Bridge.ChainA

end
-- ==== Proof.TakeMask.lean ====
/-
  The kernel gathers rows of the [100000, 128] feature array by the source-node indices with a gather that FILLS:
  a negative index is first moved up by 100000; the row is gathered (the gather clamps); and where the moved index
  is outside 0 … 99999 the gathered row is replaced by a fill word. When every index names a node, 0 ≤ row < 100000,
  no index is moved, every one passes the range test, and the fill is never chosen: the result is the plain gather.

  The proof reads every operation at one index. Two facts about 32-bit words, through their signed values: a word that
  is ≥ 0 is not < 0, and a word that is < 100000 is ≤ 99999. One fact about folds: folding `and` from the bit 1 over a
  list of bits that are all 1 gives 1, so a reduce by `and` from 1 of an array that is 1 everywhere is 1 everywhere
  (whatever the reduced axes are). Each entry of the start-index column is, by the definition of the broadcast, the
  selected word at some edge; there the hypothesis makes the select keep the index itself and makes both range tests 1.
-/
import proofs.«404412_j85572928405775_1_alg».proof.KernelIdeal
import proofs.«404412_j85572928405775_1_alg».proof.Proof.Gen.KernelIdeal
import Idealize.ShloMosaic.Lib.StableHlo.Predicate
import Idealize.ShloMosaic.Lib.ReduceAll
import Idealize.ShloMosaic.Lib.ValueIdx

set_option maxRecDepth 16384

noncomputable section

namespace Cert.Bridge.Take

open Cert.KernelIdeal Cert.KernelIdeal.Facts₀
open Idealize.ShloMosaic

variable {F : FTy → Type} [FloatOps F]

/-- The start indices of the gather: the source-node indices, a negative one moved up by the number of nodes, as a column. -/
def startIdx (row : IVec S600000 32) : IVec S600000x1 32 :=
  broadcastInDim S600000x1 ![0] bcast_S600000_S600000x1_0
    (select (cmpi .slt row (broadcastInDim S600000 ![] bcast_S_S600000 (constantI S_ 32 0#32)))
      (addi row (broadcastInDim S600000 ![] bcast_S_S600000 (constantI S_ 32 100000#32))) row)

/-- Per edge: is the start index inside 0 … 99999? (The test is made on the column and folded over its one entry.) -/
def inRange (row : IVec S600000 32) : IVec S600000 1 :=
  Host.reduce IntOp.andi
    (andi (cmpi .sge (startIdx row) (broadcastInDim S600000x1 ![] bcast_S_S600000x1 (constantI S_ 32 0#32)))
      (cmpi .sle (startIdx row) (broadcastInDim S600000x1 ![0, 1] bcast_S1x1_S600000x1_0_1
        (broadcastInDim S1x1 ![1] bcast_S1_S1x1_1 (constantI S1 32 99999#32)))))
    (constantI S_ 1 1#1) reducesTo_S600000x1_S600000_d1 h_S_

/-- The kernel's filling gather of the rows of `h` at the source-node indices `row`. -/
def fillGather (h : FVec F S100000x128 .f32) (row : IVec S600000 32) : FVec F S600000x128 .f32 :=
  select (broadcastInDim S600000x128 ![0] bcast_S600000_S600000x128_0 (inRange row))
    (Host.gather gather_S100000x128_S600000x1_S600000x128_1_0_n_n_0_1_1128 h (startIdx row))
    (broadcastInDim S600000x128 ![] bcast_S_S600000x128 (constant S_ .f32 0x7FC00000#32))

/-! ### Words and folds (nothing here names a program) -/

/-- A word that is ≥ 0 (signed) is not < 0 (signed). -/
theorem slt_zero_of_sge_zero (x : BitVec 32) (hx : IntOp.cmpi .sge x 0#32 = 1#1) : IntOp.cmpi .slt x 0#32 = 0#1 := by
  have h0 : (0#32 : BitVec 32).toInt = 0 := by decide
  simp only [IntOp.cmpi, StableHlo.Predicate.ofBool_eq_one_iff, BitVec.sle, h0, decide_eq_true_eq] at hx
  have hlt : x.slt 0#32 = false := by
    simp only [BitVec.slt, h0, decide_eq_false_iff_not]; omega
  simp only [IntOp.cmpi, hlt]; rfl

/-- A word that is < 100000 (signed) is ≤ 99999 (signed). -/
theorem sle_pred_of_slt (x : BitVec 32) (hx : IntOp.cmpi .slt x 100000#32 = 1#1) : IntOp.cmpi .sle x 99999#32 = 1#1 := by
  have h1 : (100000#32 : BitVec 32).toInt = 100000 := by decide
  have h2 : (99999#32 : BitVec 32).toInt = 99999 := by decide
  simp only [IntOp.cmpi, StableHlo.Predicate.ofBool_eq_one_iff, BitVec.slt, h1, decide_eq_true_eq] at hx
  simp only [IntOp.cmpi, StableHlo.Predicate.ofBool_eq_one_iff, BitVec.sle, h2, decide_eq_true_eq]; omega

/-- Folding `and` from 1 over bits that are all 1 gives 1. -/
theorem foldl_andi_of_all_one {ι : Type} (g : ι → BitVec 1) (hg : ∀ n, g n = 1#1) :
    ∀ l : List ι, l.foldl (fun r n => IntOp.andi r (g n)) 1#1 = 1#1
  | [] => rfl
  | a :: l => by
    rw [List.foldl_cons, hg a, show IntOp.andi (1#1 : BitVec 1) 1#1 = 1#1 from by decide]
    exact foldl_andi_of_all_one g hg l

/-- A reduce by `and` from the constant 1 of an array that is 1 everywhere is 1 everywhere. -/
theorem reduce_andi_of_all_one {s t u : Shape} {axes : List (Fin s.rank)} (x : s.Idx → BitVec 1) (hx : ∀ i, x i = 1#1)
    (hr : s.ReducesTo axes t) (hu : 0 < u.numel) (j : t.Idx) :
    Host.reduce IntOp.andi x (constantI u 1 1#1) hr hu j = 1#1 := by
  unfold Host.reduce
  exact foldl_andi_of_all_one (fun n => x (s.rowMajor.symm n)) (fun n => hx _) _

/-- A broadcast of an array that is 1 everywhere is 1 everywhere: each entry of a broadcast is an entry of its operand. -/
theorem broadcastInDim_of_all_one {s t : Shape} {dims : Fin s.rank → Fin t.rank} (hb : s.BroadcastsInDim t dims)
    (x : s.Idx → BitVec 1) (hx : ∀ i, x i = 1#1) (j : t.Idx) : broadcastInDim t dims hb x j = 1#1 := by
  unfold broadcastInDim
  exact hx _

/-! ### The kernel's mask -/

/-- Every entry of the start-index column is an index word itself: the select keeps it, since it is not negative. -/
theorem startIdx_eq (row : IVec S600000 32) (hrow : ∀ e : S600000.Idx, IntOp.cmpi .sge (row e) 0#32 = 1#1 ∧ IntOp.cmpi .slt (row e) 100000#32 = 1#1)
    (i : S600000x1.Idx) : ∃ e : S600000.Idx, startIdx row i = row e := by
  -- the broadcast applied to the identity names the edge whose word the column entry `i` holds
  refine ⟨broadcastInDim S600000x1 ![0] bcast_S600000_S600000x1_0 (fun e : S600000.Idx => e) i, ?_⟩
  show Scalar.select (IntOp.cmpi .slt (row _) 0#32) (IntOp.addi (row _) 100000#32) (row _) = row _
  rw [slt_zero_of_sge_zero _ (hrow _).1]
  exact if_neg (by decide)

/-- The range test is 1 at every edge. -/
theorem inRange_eq_one (row : IVec S600000 32) (hrow : ∀ e : S600000.Idx, IntOp.cmpi .sge (row e) 0#32 = 1#1 ∧ IntOp.cmpi .slt (row e) 100000#32 = 1#1)
    (e : S600000.Idx) : inRange row e = 1#1 := by
  unfold inRange
  refine reduce_andi_of_all_one _ (fun i => ?_) _ _ e
  obtain ⟨e', he'⟩ := startIdx_eq row hrow i
  show IntOp.andi (IntOp.cmpi .sge (startIdx row i) 0#32) (IntOp.cmpi .sle (startIdx row i) 99999#32) = 1#1
  rw [he', (hrow e').1, sle_pred_of_slt _ (hrow e').2]
  decide

/-- With every source-node index in 0 … 99999 the fill is never chosen. -/
theorem fillGather_eq (h : FVec F S100000x128 .f32) (row : IVec S600000 32)
    (hrow : ∀ e : S600000.Idx, IntOp.cmpi .sge (row e) 0#32 = 1#1 ∧ IntOp.cmpi .slt (row e) 100000#32 = 1#1) :
    fillGather h row = Host.gather gather_S100000x128_S600000x1_S600000x128_1_0_n_n_0_1_1128 h (startIdx row) := by
  funext p
  have hm := broadcastInDim_of_all_one bcast_S600000_S600000x128_0 (inRange row) (inRange_eq_one row hrow) p
  unfold fillGather select
  rw [hm]
  exact if_pos rfl

end Cert.Bridge.Take

end
-- ==== Proof.LibRowOfVector.lean ====
/-
  A vector of length n laid out as a matrix with one row. Two host operations do this: a reshape [n] → [1, n] and a
  broadcast_in_dim along dims = [1]. They are the same function: entry (0, q) of either is entry q of the vector,
  because the row-major position of (0, q) in [1, n] is q.
-/
import Idealize.ShloMosaic.Lib.Pipeline.Value

namespace Cert.Lib

open Idealize.ShloMosaic

/-- The reshape of a length-n vector to one row and its broadcast_in_dim along the column axis are one function. -/
theorem reshape_row_eq_broadcastInDim {α : Type} {n : Nat} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  have hj0 : (j 0).val = 0 := by
    have h0 := (j 0).isLt
    have e : (⟨2, ![1, n]⟩ : Shape).size 0 = 1 := rfl
    omega
  have hj1 : (j 1).val < n := (j 1).isLt
  -- the vector's index under (0, q) is q
  let k : (⟨1, ![n]⟩ : Shape).Idx := fun a => match a with | ⟨0, _⟩ => ⟨(j 1).val, hj1⟩
  have hk0 : (k 0).val = (j 1).val := rfl
  rw [shapeCast_apply b h j k (by
        rw [Shape.rowMajor_val_one, Shape.rowMajor_val_two, hk0, hj0]
        show (j 1).val = 0 * n + (j 1).val
        omega),
      broadcastInDim_apply ![1] h' b j k (fun a => by
        match a with
        | ⟨0, _⟩ =>
          show (j 1).val = if n = 1 then 0 else (j 1).val
          by_cases hn : n = 1
          · rw [if_pos hn]; omega
          · rw [if_neg hn])]

end Cert.Lib
-- ==== Proof.ChainB.lean ====
/-
  The kernel's program from the end of its first matrix product to the end of its second, read as values.

  Between regions 0 and 1 the host operations form, per edge, norm = dis[row] · weight · dis[col]; gather the rows of
  x · W1 at the source nodes (the kernel's filling gather, which is the plain gather when every source index names a node);
  scale each gathered row by its edge's norm; and add the scaled rows into their target nodes. The bias b1 is laid out as
  one row. These are the reference's operations on the same values, so each buffer holds the reference's stage function
  of the argument arrays. Region 1 adds the bias and applies the leaky rectifier; region 2 multiplies by W2.

  The statements hold at every float instance; the regions' values and the range of the source indices enter as hypotheses.
-/
import proofs.«404412_j85572928405775_1_alg».proof.Proof.ChainA
import proofs.«404412_j85572928405775_1_alg».proof.Proof.TakeMask
import proofs.«404412_j85572928405775_1_alg».proof.Proof.ActRef
import proofs.«404412_j85572928405775_1_alg».proof.Proof.LibRowOfVector

set_option maxRecDepth 16384

noncomputable section

namespace Cert.Bridge.ChainB

open Cert.KernelIdeal Cert.KernelIdeal.Gen
open Cert.ReferenceIdeal.Read
open Idealize.ShloMosaic Idealize.ShloMosaic.TcCoe Idealize.SL.Sem Idealize.ShloMosaic.StableHlo
open Cert.Bridge Cert.Bridge.ChainA

variable {F : FTy → Type} [FloatOps F]
variable (m : (ℓ : Loc nD τ sig) → Buf (Elt F) ℓ) (ρ : Dev nD → PrngReg) (c : Dev nD)

/-- Reads a buffer after the first stretch that follows region 0 (the per-edge norm). -/
macro "past_norm" : tactic => `(tactic| (dsimp only [W6]; simp only [hostOps1]; after_results_simp))
/-- Reads a buffer at region 1's entry back to region 0's exit, through all three stretches. -/
macro "between_regions" : tactic =>
  `(tactic| (dsimp only [W8, W7, W6]; simp only [hostOps1, hostOps1_1, hostOps1_2]; after_results_simp))

/-- Runs one stretch of host operations from contents made opaque first, so that the boundary before it stays a name;
    a value written to a buffer and read back from it is the value (the two transports along the buffer's type cancel). -/
macro "step_over " ops:ident " from " W:term : tactic =>
  `(tactic| (generalize hW : $W = Wx; simp only [$ops:ident]; after_results_simp
             try simp only [TRef.toBuf, TRef.ofBuf, cast_cast, cast_eq]
             subst hW))

variable (hR0 : (∀ (V : (c : Dev nD) → (b : Ref sig .tc) → Buf (Elt F) ((c : Thread nD τ).loc b)) (c : Dev nD),
      (dat0 (F := F) V c).arrAt 2 cfg0.N
        = Host.dotGeneral (F := F) (φ₁ := .f32) (φ₂ := .f32) Cert.ReferenceIdeal.dot_S100000x256_S256x128_S100000x128_1_0_0_1_n_n none
            (V c (Pipeline.arrRef spec0 0)) (V c (Pipeline.arrRef spec0 1))))

/-! ## The per-edge norm -/

set_option maxHeartbeats 4000000 in
/-- norm = dis[row] · weight · dis[col]. -/
theorem W6_norm : W6 m ρ c (Proc.devRef .tc main_v30) = val_main_v29 (F := F) (a1 m c) (a2 m c) := by
  past_norm
  simp only [W5_row m ρ c, W5_col m ρ c, W5_dis m ρ c, W5_arg2 m ρ c]
  rfl

include hR0 in
set_option maxHeartbeats 4000000 in
theorem W6_h : W6 m ρ c (Proc.devRef .tc main_v14) = val_main_v30 (F := F) (a0 m c) (a4 m c) := by
  past_norm; exact W5_h m ρ c hR0
set_option maxHeartbeats 4000000 in
theorem W6_row : W6 m ρ c (Proc.devRef .tc main_v1) = val_main_v1 (F := F) (a1 m c) := by
  past_norm; exact W5_row m ρ c

/-! ## The gather of the source nodes' rows -/

variable (hrow : (∀ e : S600000.Idx, IntOp.cmpi .sge (val_main_v1 (F := F) (a1 m c) e) 0#32 = 1#1
      ∧ IntOp.cmpi .slt (val_main_v1 (F := F) (a1 m c) e) 100000#32 = 1#1))

include hR0 hrow in
set_option maxHeartbeats 4000000 in
/-- With every source index naming a node, the kernel's filling gather is the reference's gather of the rows of x · W1. -/
theorem W7_rows : W7 m ρ c (Proc.devRef .tc main_v31) = val_main_v38 (F := F) (a0 m c) (a1 m c) (a4 m c) := by
  dsimp only [W7]
  step_over hostOps1_1 from W6 m ρ c
  simp only [W6_h m ρ c hR0, W6_row m ρ c]
  refine (show _ = Take.fillGather (F := F) (val_main_v30 (F := F) (a0 m c) (a4 m c)) (val_main_v1 (F := F) (a1 m c)) from rfl).trans ?_
  refine (Take.fillGather_eq _ _ hrow).trans ?_
  rfl

set_option maxHeartbeats 4000000 in
theorem W7_norm : W7 m ρ c (Proc.devRef .tc main_v30) = val_main_v29 (F := F) (a1 m c) (a2 m c) := by
  dsimp only [W7]
  step_over hostOps1_1 from W6 m ρ c
  exact W6_norm m ρ c
set_option maxHeartbeats 4000000 in
theorem W7_col : W7 m ρ c (Proc.devRef .tc main_v3) = val_main_v3 (F := F) (a1 m c) := by
  dsimp only [W7, W6]; simp only [hostOps1, hostOps1_1]; after_results_simp; exact W5_col m ρ c

/-! ## At region 1's entry -/

include hR0 hrow in
set_option maxHeartbeats 4000000 in
/-- The scaled rows added into their target nodes: the first layer's aggregate. -/
theorem W8_agg : W8 m ρ c (Proc.devRef .tc main_v37) = val_main_v43 (F := F) (a0 m c) (a1 m c) (a2 m c) (a4 m c) := by
  dsimp only [W8]
  step_over hostOps1_2 from W7 m ρ c
  simp only [W7_rows m ρ c hR0 hrow, W7_norm m ρ c, W7_col m ρ c]
  rfl

set_option maxHeartbeats 4000000 in
/-- The bias b1 as one row: the kernel reshapes it, the reference broadcasts it along the column axis. -/
theorem W8_bias : W8 m ρ c (Proc.devRef .tc main_v38) = val_main_v44 (F := F) (a5 m c) := by
  between_regions
  simp only [W5_arg5 m ρ c]
  exact Cert.Lib.reshape_row_eq_broadcastInDim (a5 m c) _ _

set_option maxHeartbeats 4000000 in
theorem W8_row : W8 m ρ c (Proc.devRef .tc main_v1) = val_main_v1 (F := F) (a1 m c) := by between_regions; exact W5_row m ρ c
set_option maxHeartbeats 4000000 in
theorem W8_col : W8 m ρ c (Proc.devRef .tc main_v3) = val_main_v3 (F := F) (a1 m c) := by between_regions; exact W5_col m ρ c
set_option maxHeartbeats 4000000 in
theorem W8_dis : W8 m ρ c (Proc.devRef .tc main_v13) = val_main_v13 (F := F) (a1 m c) (a2 m c) := by between_regions; exact W5_dis m ρ c
set_option maxHeartbeats 4000000 in
theorem W8_arg2 : W8 m ρ c (Proc.devRef .tc main_arg2) = a2 m c := by between_regions; exact W5_arg2 m ρ c
set_option maxHeartbeats 4000000 in
theorem W8_arg3 : W8 m ρ c (Proc.devRef .tc main_arg3) = a3 m c := by between_regions; exact W5_arg3 m ρ c
set_option maxHeartbeats 4000000 in
theorem W8_arg6 : W8 m ρ c (Proc.devRef .tc main_arg6) = a6 m c := by between_regions; exact W5_arg6 m ρ c
set_option maxHeartbeats 4000000 in
theorem W8_arg7 : W8 m ρ c (Proc.devRef .tc main_arg7) = a7 m c := by between_regions; exact W5_arg7 m ρ c
set_option maxHeartbeats 4000000 in
theorem W8_arg8 : W8 m ρ c (Proc.devRef .tc main_arg8) = a8 m c := by between_regions; exact W5_arg8 m ρ c
set_option maxHeartbeats 4000000 in
theorem W8_arg9 : W8 m ρ c (Proc.devRef .tc main_arg9) = a9 m c := by between_regions; exact W5_arg9 m ρ c

/-! ## At region 1's exit -/

variable (hR1 : (∀ (V : (c : Dev nD) → (b : Ref sig .tc) → Buf (Elt F) ((c : Thread nD τ).loc b)) (c : Dev nD),
      (dat1 (F := F) V c).arrAt 2 cfg1.N
        = Cert.Bridge.actRef (F := F) (V c (Pipeline.arrRef spec1 0)) (V c (Pipeline.arrRef spec1 1))))

include hR0 hrow hR1 in
/-- Region 1's output: the first layer, bias added and rectified. -/
theorem W9_h1 : W9 m ρ c (Proc.devRef .tc main_v39)
    = val_main_v51 (F := F) (a0 m c) (a1 m c) (a2 m c) (a4 m c) (a5 m c) := by
  refine (W9_arr m ρ c 2).trans ((hR1 (V8 m ρ) c).trans ?_)
  show Cert.Bridge.actRef (F := F) (W8 m ρ c (Proc.devRef .tc main_v37)) (W8 m ρ c (Proc.devRef .tc main_v38)) = _
  rw [W8_agg m ρ c hR0 hrow, W8_bias m ρ c]; rfl

theorem W9_row : W9 m ρ c (Proc.devRef .tc main_v1) = val_main_v1 (F := F) (a1 m c) := (W9_of_ne m ρ c main_v1 (by decide)).trans (W8_row m ρ c)
theorem W9_col : W9 m ρ c (Proc.devRef .tc main_v3) = val_main_v3 (F := F) (a1 m c) := (W9_of_ne m ρ c main_v3 (by decide)).trans (W8_col m ρ c)
theorem W9_dis : W9 m ρ c (Proc.devRef .tc main_v13) = val_main_v13 (F := F) (a1 m c) (a2 m c) := (W9_of_ne m ρ c main_v13 (by decide)).trans (W8_dis m ρ c)
theorem W9_arg2 : W9 m ρ c (Proc.devRef .tc main_arg2) = a2 m c := (W9_of_ne m ρ c main_arg2 (by decide)).trans (W8_arg2 m ρ c)
theorem W9_arg3 : W9 m ρ c (Proc.devRef .tc main_arg3) = a3 m c := (W9_of_ne m ρ c main_arg3 (by decide)).trans (W8_arg3 m ρ c)
theorem W9_arg6 : W9 m ρ c (Proc.devRef .tc main_arg6) = a6 m c := (W9_of_ne m ρ c main_arg6 (by decide)).trans (W8_arg6 m ρ c)
theorem W9_arg7 : W9 m ρ c (Proc.devRef .tc main_arg7) = a7 m c := (W9_of_ne m ρ c main_arg7 (by decide)).trans (W8_arg7 m ρ c)
theorem W9_arg8 : W9 m ρ c (Proc.devRef .tc main_arg8) = a8 m c := (W9_of_ne m ρ c main_arg8 (by decide)).trans (W8_arg8 m ρ c)
theorem W9_arg9 : W9 m ρ c (Proc.devRef .tc main_arg9) = a9 m c := (W9_of_ne m ρ c main_arg9 (by decide)).trans (W8_arg9 m ρ c)

/-! ## At region 2's exit -/

variable (hR2 : (∀ (V : (c : Dev nD) → (b : Ref sig .tc) → Buf (Elt F) ((c : Thread nD τ).loc b)) (c : Dev nD),
      (dat2 (F := F) V c).arrAt 2 cfg2.N
        = Host.dotGeneral (F := F) (φ₁ := .f32) (φ₂ := .f32) Cert.ReferenceIdeal.dot_S100000x128_S128x128_S100000x128_1_0_0_1_n_n none
            (V c (Pipeline.arrRef spec2 0)) (V c (Pipeline.arrRef spec2 1))))

include hR0 hrow hR1 hR2 in
/-- Region 2's output: the first layer's output times W2. -/
theorem W10_h : W10 m ρ c (Proc.devRef .tc main_v40)
    = val_main_v78 (F := F) (a0 m c) (a1 m c) (a2 m c) (a4 m c) (a5 m c) (a6 m c) := by
  refine (W10_arr m ρ c 2).trans ((hR2 (V9 m ρ) c).trans ?_)
  show Host.dotGeneral (F := F) (φ₁ := .f32) (φ₂ := .f32) _ none (W9 m ρ c (Proc.devRef .tc main_v39)) (W9 m ρ c (Proc.devRef .tc main_arg6)) = _
  rw [W9_h1 m ρ c hR0 hrow hR1, W9_arg6 m ρ c]; rfl

theorem W10_row : W10 m ρ c (Proc.devRef .tc main_v1) = val_main_v1 (F := F) (a1 m c) := (W10_of_ne m ρ c main_v1 (by decide)).trans (W9_row m ρ c)
theorem W10_col : W10 m ρ c (Proc.devRef .tc main_v3) = val_main_v3 (F := F) (a1 m c) := (W10_of_ne m ρ c main_v3 (by decide)).trans (W9_col m ρ c)
theorem W10_dis : W10 m ρ c (Proc.devRef .tc main_v13) = val_main_v13 (F := F) (a1 m c) (a2 m c) := (W10_of_ne m ρ c main_v13 (by decide)).trans (W9_dis m ρ c)
theorem W10_arg2 : W10 m ρ c (Proc.devRef .tc main_arg2) = a2 m c := (W10_of_ne m ρ c main_arg2 (by decide)).trans (W9_arg2 m ρ c)
theorem W10_arg3 : W10 m ρ c (Proc.devRef .tc main_arg3) = a3 m c := (W10_of_ne m ρ c main_arg3 (by decide)).trans (W9_arg3 m ρ c)
theorem W10_arg7 : W10 m ρ c (Proc.devRef .tc main_arg7) = a7 m c := (W10_of_ne m ρ c main_arg7 (by decide)).trans (W9_arg7 m ρ c)
theorem W10_arg8 : W10 m ρ c (Proc.devRef .tc main_arg8) = a8 m c := (W10_of_ne m ρ c main_arg8 (by decide)).trans (W9_arg8 m ρ c)
theorem W10_arg9 : W10 m ρ c (Proc.devRef .tc main_arg9) = a9 m c := (W10_of_ne m ρ c main_arg9 (by decide)).trans (W9_arg9 m ρ c)

end Cert.Bridge.ChainB

end
-- ==== Proof.ChainC.lean ====
/-
  The kernel's program from the end of its second matrix product to the end of its second activation, read as values.

  Between regions 2 and 3 the host operations repeat the first layer's aggregation on h1 · W2: the per-edge norm (the
  kernel reuses the normalisation dis it computed once; the reference computes it again by the same operations, so the two
  are one term), the gather of the source nodes' rows, the scaling, the scatter-add into the target nodes, and the bias b2
  as one row. Region 3 adds the bias and applies the leaky rectifier.

  The statements hold at every float instance; the regions' values and the range of the source indices enter as hypotheses.
-/
import proofs.«404412_j85572928405775_1_alg».proof.Proof.ChainB

set_option maxRecDepth 16384

noncomputable section

namespace Cert.Bridge.ChainC

open Cert.KernelIdeal Cert.KernelIdeal.Gen
open Cert.ReferenceIdeal.Read
open Idealize.ShloMosaic Idealize.ShloMosaic.TcCoe Idealize.SL.Sem Idealize.ShloMosaic.StableHlo
open Cert.Bridge Cert.Bridge.ChainB

variable {F : FTy → Type} [FloatOps F]
variable (m : (ℓ : Loc nD τ sig) → Buf (Elt F) ℓ) (ρ : Dev nD → PrngReg) (c : Dev nD)

/-- Reads a buffer after the first stretch that follows region 2 (the per-edge norm). -/
macro "past_norm" : tactic => `(tactic| (dsimp only [W11]; simp only [hostOps3]; after_results_simp))
/-- Reads a buffer at region 3's entry back to region 2's exit, through all three stretches. -/
macro "between_regions" : tactic =>
  `(tactic| (dsimp only [W13, W12, W11]; simp only [hostOps3, hostOps3_1, hostOps3_2]; after_results_simp))

/-- Runs one stretch of host operations from contents made opaque first, so that the boundary before it stays a name;
    a value written to a buffer and read back from it is the value (the two transports along the buffer's type cancel). -/
macro "step_over " ops:ident " from " W:term : tactic =>
  `(tactic| (generalize hW : $W = Wx; simp only [$ops:ident]; after_results_simp
             try simp only [TRef.toBuf, TRef.ofBuf, cast_cast, cast_eq]
             subst hW))

variable (hR0 : (∀ (V : (c : Dev nD) → (b : Ref sig .tc) → Buf (Elt F) ((c : Thread nD τ).loc b)) (c : Dev nD),
      (dat0 (F := F) V c).arrAt 2 cfg0.N
        = Host.dotGeneral (F := F) (φ₁ := .f32) (φ₂ := .f32) Cert.ReferenceIdeal.dot_S100000x256_S256x128_S100000x128_1_0_0_1_n_n none
            (V c (Pipeline.arrRef spec0 0)) (V c (Pipeline.arrRef spec0 1))))
variable (hrow : (∀ e : S600000.Idx, IntOp.cmpi .sge (val_main_v1 (F := F) (a1 m c) e) 0#32 = 1#1
      ∧ IntOp.cmpi .slt (val_main_v1 (F := F) (a1 m c) e) 100000#32 = 1#1))
variable (hR1 : (∀ (V : (c : Dev nD) → (b : Ref sig .tc) → Buf (Elt F) ((c : Thread nD τ).loc b)) (c : Dev nD),
      (dat1 (F := F) V c).arrAt 2 cfg1.N
        = Cert.Bridge.actRef (F := F) (V c (Pipeline.arrRef spec1 0)) (V c (Pipeline.arrRef spec1 1))))
variable (hR2 : (∀ (V : (c : Dev nD) → (b : Ref sig .tc) → Buf (Elt F) ((c : Thread nD τ).loc b)) (c : Dev nD),
      (dat2 (F := F) V c).arrAt 2 cfg2.N
        = Host.dotGeneral (F := F) (φ₁ := .f32) (φ₂ := .f32) Cert.ReferenceIdeal.dot_S100000x128_S128x128_S100000x128_1_0_0_1_n_n none
            (V c (Pipeline.arrRef spec2 0)) (V c (Pipeline.arrRef spec2 1))))

/-! ## The per-edge norm, again -/

set_option maxHeartbeats 4000000 in
/-- norm = dis[row] · weight · dis[col], the reference's second computation of it. -/
theorem W11_norm : W11 m ρ c (Proc.devRef .tc main_v56) = val_main_v77 (F := F) (a1 m c) (a2 m c) := by
  past_norm
  simp only [W10_row m ρ c, W10_col m ρ c, W10_dis m ρ c, W10_arg2 m ρ c]
  rfl

include hR0 hrow hR1 hR2 in
set_option maxHeartbeats 4000000 in
theorem W11_h : W11 m ρ c (Proc.devRef .tc main_v40)
    = val_main_v78 (F := F) (a0 m c) (a1 m c) (a2 m c) (a4 m c) (a5 m c) (a6 m c) := by
  past_norm; exact W10_h m ρ c hR0 hrow hR1 hR2
set_option maxHeartbeats 4000000 in
theorem W11_row : W11 m ρ c (Proc.devRef .tc main_v1) = val_main_v1 (F := F) (a1 m c) := by
  past_norm; exact W10_row m ρ c

/-! ## The gather of the source nodes' rows -/

include hR0 hrow hR1 hR2 in
set_option maxHeartbeats 4000000 in
/-- With every source index naming a node, the kernel's filling gather is the reference's gather of the rows of h1 · W2. -/
theorem W12_rows : W12 m ρ c (Proc.devRef .tc main_v57)
    = val_main_v86 (F := F) (a0 m c) (a1 m c) (a2 m c) (a4 m c) (a5 m c) (a6 m c) := by
  dsimp only [W12]
  step_over hostOps3_1 from W11 m ρ c
  simp only [W11_h m ρ c hR0 hrow hR1 hR2, W11_row m ρ c]
  refine (show _ = Take.fillGather (F := F) (val_main_v78 (F := F) (a0 m c) (a1 m c) (a2 m c) (a4 m c) (a5 m c) (a6 m c))
      (val_main_v1 (F := F) (a1 m c)) from rfl).trans ?_
  refine (Take.fillGather_eq _ _ hrow).trans ?_
  rfl

set_option maxHeartbeats 4000000 in
theorem W12_norm : W12 m ρ c (Proc.devRef .tc main_v56) = val_main_v77 (F := F) (a1 m c) (a2 m c) := by
  dsimp only [W12]
  step_over hostOps3_1 from W11 m ρ c
  exact W11_norm m ρ c
set_option maxHeartbeats 4000000 in
theorem W12_col : W12 m ρ c (Proc.devRef .tc main_v3) = val_main_v3 (F := F) (a1 m c) := by
  dsimp only [W12, W11]; simp only [hostOps3, hostOps3_1]; after_results_simp; exact W10_col m ρ c

/-! ## At region 3's entry -/

include hR0 hrow hR1 hR2 in
set_option maxHeartbeats 4000000 in
/-- The scaled rows added into their target nodes: the second layer's aggregate. -/
theorem W13_agg : W13 m ρ c (Proc.devRef .tc main_v63)
    = val_main_v91 (F := F) (a0 m c) (a1 m c) (a2 m c) (a4 m c) (a5 m c) (a6 m c) := by
  dsimp only [W13]
  step_over hostOps3_2 from W12 m ρ c
  simp only [W12_rows m ρ c hR0 hrow hR1 hR2, W12_norm m ρ c, W12_col m ρ c]
  rfl

set_option maxHeartbeats 4000000 in
/-- The bias b2 as one row: the kernel reshapes it, the reference broadcasts it along the column axis. -/
theorem W13_bias : W13 m ρ c (Proc.devRef .tc main_v64) = val_main_v92 (F := F) (a7 m c) := by
  between_regions
  simp only [W10_arg7 m ρ c]
  exact Cert.Lib.reshape_row_eq_broadcastInDim (a7 m c) _ _

set_option maxHeartbeats 4000000 in
theorem W13_arg3 : W13 m ρ c (Proc.devRef .tc main_arg3) = a3 m c := by between_regions; exact W10_arg3 m ρ c
set_option maxHeartbeats 4000000 in
theorem W13_arg8 : W13 m ρ c (Proc.devRef .tc main_arg8) = a8 m c := by between_regions; exact W10_arg8 m ρ c
set_option maxHeartbeats 4000000 in
theorem W13_arg9 : W13 m ρ c (Proc.devRef .tc main_arg9) = a9 m c := by between_regions; exact W10_arg9 m ρ c

/-! ## At region 3's exit -/

variable (hR3 : (∀ (V : (c : Dev nD) → (b : Ref sig .tc) → Buf (Elt F) ((c : Thread nD τ).loc b)) (c : Dev nD),
      (dat3 (F := F) V c).arrAt 2 cfg3.N
        = Cert.Bridge.actRef (F := F) (V c (Pipeline.arrRef spec3 0)) (V c (Pipeline.arrRef spec3 1))))

include hR0 hrow hR1 hR2 hR3 in
/-- Region 3's output: the second layer, bias added and rectified. -/
theorem W14_h2 : W14 m ρ c (Proc.devRef .tc main_v65)
    = val_main_v99 (F := F) (a0 m c) (a1 m c) (a2 m c) (a4 m c) (a5 m c) (a6 m c) (a7 m c) := by
  refine (W14_arr m ρ c 2).trans ((hR3 (V13 m ρ) c).trans ?_)
  show Cert.Bridge.actRef (F := F) (W13 m ρ c (Proc.devRef .tc main_v63)) (W13 m ρ c (Proc.devRef .tc main_v64)) = _
  rw [W13_agg m ρ c hR0 hrow hR1 hR2, W13_bias m ρ c]; rfl

theorem W14_arg3 : W14 m ρ c (Proc.devRef .tc main_arg3) = a3 m c := (W14_of_ne m ρ c main_arg3 (by decide)).trans (W13_arg3 m ρ c)
theorem W14_arg8 : W14 m ρ c (Proc.devRef .tc main_arg8) = a8 m c := (W14_of_ne m ρ c main_arg8 (by decide)).trans (W13_arg8 m ρ c)
theorem W14_arg9 : W14 m ρ c (Proc.devRef .tc main_arg9) = a9 m c := (W14_of_ne m ρ c main_arg9 (by decide)).trans (W13_arg9 m ρ c)

end Cert.Bridge.ChainC

end
-- ==== Proof.ChainD.lean ====
/-
  The end of the kernel's program, read as a value. After region 3 the host operations pool the node features by graph
  (a scatter-add by the batch indices, divided by each graph's node count, at least 1), multiply by Wl, add bl, and take
  the log-softmax of each row. They are the reference's last operations on the same values, so the result buffer holds the
  reference's last stage function of the ten argument arrays.

  The statement holds at every float instance; the regions' values and the range of the source indices enter as hypotheses.
-/
import proofs.«404412_j85572928405775_1_alg».proof.Proof.ChainC

set_option maxRecDepth 16384

noncomputable section

namespace Cert.Bridge.ChainD

open Cert.KernelIdeal Cert.KernelIdeal.Gen
open Cert.ReferenceIdeal.Read
open Idealize.ShloMosaic Idealize.ShloMosaic.TcCoe Idealize.SL.Sem Idealize.ShloMosaic.StableHlo
open Cert.Bridge Cert.Bridge.ChainC

variable {F : FTy → Type} [FloatOps F]
variable (m : (ℓ : Loc nD τ sig) → Buf (Elt F) ℓ) (ρ : Dev nD → PrngReg) (c : Dev nD)

variable (hR0 : (∀ (V : (c : Dev nD) → (b : Ref sig .tc) → Buf (Elt F) ((c : Thread nD τ).loc b)) (c : Dev nD),
      (dat0 (F := F) V c).arrAt 2 cfg0.N
        = Host.dotGeneral (F := F) (φ₁ := .f32) (φ₂ := .f32) Cert.ReferenceIdeal.dot_S100000x256_S256x128_S100000x128_1_0_0_1_n_n none
            (V c (Pipeline.arrRef spec0 0)) (V c (Pipeline.arrRef spec0 1))))
variable (hrow : (∀ e : S600000.Idx, IntOp.cmpi .sge (val_main_v1 (F := F) (a1 m c) e) 0#32 = 1#1
      ∧ IntOp.cmpi .slt (val_main_v1 (F := F) (a1 m c) e) 100000#32 = 1#1))
variable (hR1 : (∀ (V : (c : Dev nD) → (b : Ref sig .tc) → Buf (Elt F) ((c : Thread nD τ).loc b)) (c : Dev nD),
      (dat1 (F := F) V c).arrAt 2 cfg1.N
        = Cert.Bridge.actRef (F := F) (V c (Pipeline.arrRef spec1 0)) (V c (Pipeline.arrRef spec1 1))))
variable (hR2 : (∀ (V : (c : Dev nD) → (b : Ref sig .tc) → Buf (Elt F) ((c : Thread nD τ).loc b)) (c : Dev nD),
      (dat2 (F := F) V c).arrAt 2 cfg2.N
        = Host.dotGeneral (F := F) (φ₁ := .f32) (φ₂ := .f32) Cert.ReferenceIdeal.dot_S100000x128_S128x128_S100000x128_1_0_0_1_n_n none
            (V c (Pipeline.arrRef spec2 0)) (V c (Pipeline.arrRef spec2 1))))
variable (hR3 : (∀ (V : (c : Dev nD) → (b : Ref sig .tc) → Buf (Elt F) ((c : Thread nD τ).loc b)) (c : Dev nD),
      (dat3 (F := F) V c).arrAt 2 cfg3.N
        = Cert.Bridge.actRef (F := F) (V c (Pipeline.arrRef spec3 0)) (V c (Pipeline.arrRef spec3 1))))

include hR0 hrow hR1 hR2 hR3 in
set_option maxHeartbeats 8000000 in
/-- The kernel's result: the reference's last stage function of the kernel's own argument arrays. -/
theorem W16_out : W16 m ρ c (Proc.devRef .tc main_v82)
    = val_main_v116 (F := F) (a0 m c) (a1 m c) (a2 m c) (a3 m c) (a4 m c) (a5 m c) (a6 m c) (a7 m c) (a8 m c) (a9 m c) := by
  dsimp only [W16, W15]
  simp only [hostOps4, hostOps4_1]
  after_results_simp
  -- a value written to a buffer and read back from it is the value
  simp only [TRef.toBuf, TRef.ofBuf, cast_cast, cast_eq]
  simp only [W14_h2 m ρ c hR0 hrow hR1 hR2 hR3, W14_arg3 m ρ c, W14_arg8 m ρ c, W14_arg9 m ρ c]
  rfl

end Cert.Bridge.ChainD

end
-- ==== Proof.lean ====
/-
  A two-layer graph convolution, mean-pooled per graph and classified, against its jnp reference.

  Both programs compute, from node features x, edges (row → col) with weights w, and graph labels:
    dis  = deg^(-1/2) where deg > 0 (deg the weighted in-degree), 0 elsewhere;   norm = dis[row] · w · dis[col];
    layer(h, W, b) = leaky(Σ over edges into a node of norm · (h · W)[row] + b),   leaky(z) = z if z ≥ 0 else 0.01 · z;
    result = log_softmax(mean over each graph's nodes of layer(layer(x, W1, b1), W2, b2) · Wl + bl).
  The kernel's program runs the two products h · W and the two bias-and-rectifier passes as tiled kernels (four regions)
  and everything else on the host, by the reference's own operations. Read at the exact reals:
    · a tiled product's output array is the host's dot_general of its two arrays (the bf16 change of format is the identity,
      the 20 row blocks tile the array): Proof/RegionMatmulA.lean, Proof/RegionMatmulB.lean;
    · a tiled bias-and-rectifier's output array is the reference's own composition of add, compare, multiply, select:
      Proof/RegionActA.lean, Proof/RegionActB.lean;
    · the kernel gathers the source nodes' rows with a gather that fills out-of-range reads, the reference with a gather that
      clamps them; under the precondition every source index names a node (Proof/PreDecode.lean) and the two agree
      (Proof/TakeMask.lean);
    · so every buffer of the kernel's run holds the reference's stage function of the argument arrays
      (Proof/ChainA.lean … Proof/ChainD.lean, at any float instance), the result buffer included.
  The frames are the generated ones; the kernel's run with its result named is Proof/KernelRun.lean; the idealization
  rewrote nothing, so its claim is trivial.
-/
import proofs.«404412_j85572928405775_1_alg».proof.Defs
import proofs.«404412_j85572928405775_1_alg».proof.Proof.Gen.Kernel
import proofs.«404412_j85572928405775_1_alg».proof.Proof.Gen.Kernel.Frame
import proofs.«404412_j85572928405775_1_alg».proof.Proof.Gen.KernelIdeal
import proofs.«404412_j85572928405775_1_alg».proof.Proof.Gen.KernelIdeal.Frame
import proofs.«404412_j85572928405775_1_alg».proof.Proof.Gen.ReferenceIdeal
import proofs.«404412_j85572928405775_1_alg».proof.Proof.Gen.ReferenceIdeal.Run
import proofs.«404412_j85572928405775_1_alg».proof.Proof.Gen.ReferenceIdeal.Read
import proofs.«404412_j85572928405775_1_alg».proof.Proof.Gen.Pre_finite_inputs
import proofs.«404412_j85572928405775_1_alg».proof.Proof.KernelRun
import proofs.«404412_j85572928405775_1_alg».proof.Proof.PreDecode
import proofs.«404412_j85572928405775_1_alg».proof.Proof.RegionMatmulA
import proofs.«404412_j85572928405775_1_alg».proof.Proof.RegionMatmulB
import proofs.«404412_j85572928405775_1_alg».proof.Proof.RegionActA
import proofs.«404412_j85572928405775_1_alg».proof.Proof.RegionActB
import proofs.«404412_j85572928405775_1_alg».proof.Proof.ChainD
import Idealize.ShloMosaic.Adequacy
import Idealize.ShloMosaic.Init

set_option maxRecDepth 16384

noncomputable section

namespace Cert.Proof

open Idealize.ShloMosaic Idealize.SL.Sem

/-- The kernel's program as printed runs, its arguments unchanged: the generated frame. -/
theorem frame_kernel : Cert.frame_Kernel := fun m ρ _ => Cert.Kernel.Gen.frame m ρ

/-- The idealized kernel's program runs, its arguments unchanged: the generated frame. -/
theorem frame_kernelIdeal : Cert.frame_KernelIdeal := fun m ρ _ => Cert.KernelIdeal.Gen.frame m ρ

/-- The reference runs, its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage function of those
    arguments in their result buffers. -/
theorem algebraic : Cert.algebraic_KernelIdeal_ReferenceIdeal := by
  intro m ρ m' ρ' hpre hagree
  -- every source-node index names a node
  have hrow : ∀ (c : Dev Cert.KernelIdeal.nD) (e : Cert.KernelIdeal.S600000.Idx),
      IntOp.cmpi .sge (Cert.ReferenceIdeal.Read.val_main_v1 (F := Ideal) (Cert.Bridge.a1 m c) e) 0#32 = 1#1
        ∧ IntOp.cmpi .slt (Cert.ReferenceIdeal.Read.val_main_v1 (F := Ideal) (Cert.Bridge.a1 m c) e) 100000#32 = 1#1 :=
    fun c e => Cert.Bridge.Pre.row_ok m hpre c e
  refine ⟨fun c => Cert.ReferenceIdeal.Read.val_main_v116 (F := Ideal) (Cert.Bridge.a0 m c) (Cert.Bridge.a1 m c) (Cert.Bridge.a2 m c) (Cert.Bridge.a3 m c) (Cert.Bridge.a4 m c) (Cert.Bridge.a5 m c) (Cert.Bridge.a6 m c) (Cert.Bridge.a7 m c) (Cert.Bridge.a8 m c) (Cert.Bridge.a9 m c), ?_, ?_⟩
  · exact (θ_run Cert.KernelIdeal.defs _ _).mono
      (fun r h c => ⟨(h c).1.trans (Cert.Bridge.ChainD.W16_out m ρ c Cert.Bridge.Region0.value (hrow c)
          Cert.Bridge.Region1.value Cert.Bridge.Region2.value Cert.Bridge.Region3.value), (h c).2⟩)
      (Cert.KernelIdeal.RunNamed.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v116_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
